-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S1048576x3 : Shape := ⟨2, ![1048576, 3]⟩
abbrev S32x64 : Shape := ⟨2, ![32, 64]⟩
abbrev S64 : Shape := ⟨1, ![64]⟩
abbrev S64x16 : Shape := ⟨2, ![64, 16]⟩
abbrev S16 : Shape := ⟨1, ![16]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S1048576x3 : S_.BroadcastsInDim S1048576x3 (![] : Fin 0 → Fin S1048576x3.rank)
  reducesTo_S1048576x3_S_d0_1 : S1048576x3.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg11 : FVec F S3 .f32) (main_v48 : IVec S_ 1) (main_v49 : FVec F S64x3 .f32) (main_v50 : FVec F S64x3 .f32) : IVec S_ 1 :=
  let main_v51 : IVec S64x3 1 := cmpf .olt main_v49 main_v50
  let main_c_19 : IVec S_ 1 := constantI S_ 1 1#1
  let main_v52 : IVec S_ 1 := (fun x v => Host.reduce IntOp.andi x v reducesTo_S64x3_S_d0_1 h_S_) main_v51 main_c_19
  let main_v53 : IVec S_ 1 := andi main_v48 main_v52
  let main_v54 : FVec F S3 .f32 := Host.absf main_arg11
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg7 : FVec F S64 .f32) (main_arg8 : FVec F S64x64 .f32) (main_arg9 : FVec F S64 .f32) (main_arg10 : FVec F S64x3 .f32) (main_arg11 : FVec F S3 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x3 .f32 := Host.absf main_arg10
  let main_cst_18 : FVec F S_ .f32 := constant S_ .f32 0x7F800000#32
  let main_v50 : FVec F S64x3 .f32 := broadcastInDim S64x3 ![] bcast_S_S64x3 main_cst_18
  fn_part3 (F := F) main_arg11 main_v48 main_v49 main_v50

def fn_part1 {F : FTy → Type} [FloatOps F] (main_arg4 : FVec F S64x16 .f32) (main_arg5 : FVec F S16 .f32) (main_arg6 : FVec F S32x64 .f32) (main_arg7 : FVec F S64 .f32) (main_arg8 : FVec F S64x64 .f32) (main_arg9 : FVec F S64 .f32) (main_arg10 : FVec F S64x3 .f32) (main_arg11 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1048576x32 .f32) (main_arg1 : FVec F S1048576x3 .f32) (main_arg2 : FVec F S32x64 .f32) (main_arg3 : FVec F S64 .f32) (main_arg4 : FVec F S64x16 .f32) (main_arg5 : FVec F S16 .f32) (main_arg6 : FVec F S32x64 .f32) (main_arg7 : FVec F S64 .f32) (main_arg8 : FVec F S64x64 .f32) (main_arg9 : FVec F S64 .f32) (main_arg10 : FVec F S64x3 .f32) (main_arg11 : FVec F S3 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S1048576x3 .f32 := Host.absf main_arg1
  let main_cst_0 : FVec F S_ .f32 := constant S_ .f32 0x7F800000#32
  let main_v5 : FVec F S1048576x3 .f32 := broadcastInDim S1048576x3 ![] bcast_S_S1048576x3 main_cst_0
  let main_v6 : IVec S1048576x3 1 := cmpf .olt main_v4 main_v5
  let main_c_1 : IVec S_ 1 := constantI S_ 1 1#1
  let main_v7 : IVec S_ 1 := (fun x v => Host.reduce IntOp.andi x v reducesTo_S1048576x3_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S1048576x32 : Shape := ⟨2, ![1048576, 32]⟩
abbrev S1048576x3 : Shape := ⟨2, ![1048576, 3]⟩
abbrev S32x64 : Shape := ⟨2, ![32, 64]⟩
abbrev S64 : Shape := ⟨1, ![64]⟩
abbrev S64x16 : Shape := ⟨2, ![64, 16]⟩
abbrev S16 : Shape := ⟨1, ![16]⟩
abbrev S64x64 : Shape := ⟨2, ![64, 64]⟩
abbrev S64x3 : Shape := ⟨2, ![64, 3]⟩
abbrev S3 : Shape := ⟨1, ![3]⟩
abbrev S1048576x16 : Shape := ⟨2, ![1048576, 16]⟩
abbrev S4096x32 : Shape := ⟨2, ![4096, 32]⟩
abbrev S4096x3 : Shape := ⟨2, ![4096, 3]⟩
abbrev S4096x16 : Shape := ⟨2, ![4096, 16]⟩
abbrev S4096x64 : Shape := ⟨2, ![4096, 64]⟩
abbrev S1x64 : Shape := ⟨2, ![1, 64]⟩
abbrev S1x16 : Shape := ⟨2, ![1, 16]⟩
abbrev S4096x1 : Shape := ⟨2, ![4096, 1]⟩
abbrev S4096 : Shape := ⟨1, ![4096]⟩
abbrev S1x3 : Shape := ⟨2, ![1, 3]⟩

abbrev nBuf : Space → Nat
  | .hbm => 14
  | .vmem => 18
  | .smem => 0
  | _ => 0

abbrev bufTy : (tb : Table) → Fin (tcTables nBuf tb) → BufTy
  | .hbm, ⟨0, _⟩ => ⟨S1048576x32, .f32⟩
  | .hbm, ⟨1, _⟩ => ⟨S1048576x3, .f32⟩
  | .hbm, ⟨2, _⟩ => ⟨S32x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S32x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x3, .f32⟩
  | .hbm, ⟨11, _⟩ => ⟨S3, .f32⟩
  | .hbm, ⟨12, _⟩ => ⟨S1048576x16, .f32⟩
  | .hbm, ⟨13, _⟩ => ⟨S1048576x3, .f32⟩
  | .local _ .vmem, ⟨0, _⟩ => ⟨S4096x32, .f32⟩
  | .local _ .vmem, ⟨1, _⟩ => ⟨S4096x32, .f32⟩
  | .local _ .vmem, ⟨2, _⟩ => ⟨S4096x3, .f32⟩
  | .local _ .vmem, ⟨3, _⟩ => ⟨S4096x3, .f32⟩
  | .local _ .vmem, ⟨4, _⟩ => ⟨S32x64, .f32⟩
  | .local _ .vmem, ⟨5, _⟩ => ⟨S64, .f32⟩
  | .local _ .vmem, ⟨6, _⟩ => ⟨S64x16, .f32⟩
  | .local _ .vmem, ⟨7, _⟩ => ⟨S16, .f32⟩
  | .local _ .vmem, ⟨8, _⟩ => ⟨S32x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S64x3, .f32⟩
  | .local _ .vmem, ⟨13, _⟩ => ⟨S3, .f32⟩
  | .local _ .vmem, ⟨14, _⟩ => ⟨S4096x16, .f32⟩
  | .local _ .vmem, ⟨15, _⟩ => ⟨S4096x16, .f32⟩
  | .local _ .vmem, ⟨16, _⟩ => ⟨S4096x3, .f32⟩
  | .local _ .vmem, ⟨17, _⟩ => ⟨S4096x3, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S4096x32_S4096x32_0_0 : ∀ a, (![0, 0] : Fin 2 → Nat) a + S4096x32.size a ≤ S4096x32.size a
  h_S4096x32 : 0 < S4096x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  inb_S4096x3_S4096x3_0_0 : ∀ a, (![0, 0] : Fin 2 → Nat) a + S4096x3.size a ≤ S4096x3.size a
  h_S4096x3 : 0 < S4096x3.numel
  slices_S4096x3_o0_0_S4096x1 : S4096x3.Slices ![0, 0] S4096x1
  shapeCasts_S4096x1_S4096 : S4096x1.ShapeCasts S4096
  slices_S4096x3_o0_1_S4096x1 : S4096x3.Slices ![0, 1] S4096x1
  slices_S4096x3_o0_2_S4096x1 : S4096x3.Slices ![0, 2] S4096x1
  shapeCasts_S4096_S4096x1 : S4096.ShapeCasts S4096x1
  concatenates_S4096x1_S4096x1_S4096x1_S4096x1_S4096x1_S4096x1_S4096x1_S4096x1_S4096x1_S4096x1_S4096x1_S4096x1_S4096x1_S4096x1_S4096x1_S4096x1_S4096x16_d1 : Shape.Concatenates [S4096x1, S4096x1, S4096x1, S4096x1, S4096x1, S4096x1, S4096x1, S4096x1, S4096x1, S4096x1, S4096x1, S4096x1, S4096x1, S4096x1, S4096x1, S4096x1] S4096x16 1
  concatenates_S4096x16_S4096x16_S4096x32_d1 : Shape.Concatenates [S4096x16, S4096x16] S4096x32 1
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S4096x3 : S1x3.Broadcasts S4096x3
  dot_S4096x32_S32x64_S4096x64_1_0_0_1_n_n_wf : DotDims.WF S4096x32 S32x64 S4096x64 [1] [0] [0] [1] [] []
  dot_S4096x64_S64x16_S4096x16_1_0_0_1_n_n_wf : DotDims.WF S4096x64 S64x16 S4096x16 [1] [0] [0] [1] [] []
  dot_S4096x64_S64x64_S4096x64_1_0_0_1_n_n_wf : DotDims.WF S4096x64 S64x64 S4096x64 [1] [0] [0] [1] [] []
  dot_S4096x64_S64x3_S4096x3_1_0_0_1_n_n_wf : DotDims.WF S4096x64 S64x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S1048576x32.size a
  hwx0_0 : ∀ i : grid0.Coords, EltTy.bits .f32 = 32 ∨ (Rect.block (s := S1048576x32) S4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S1048576x3.size a
  hwx0_1 : ∀ i : grid0.Coords, EltTy.bits .f32 = 32 ∨ (Rect.block (s := S1048576x3) S4096x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x64.size a ≤ S32x64.size a
  hwx0_6 : ∀ i : grid0.Coords, EltTy.bits .f32 = 32 ∨ (Rect.block (s := S32x64) S32x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x3.size a ≤ S64x3.size a
  hwx0_10 : ∀ i : grid0.Coords, EltTy.bits .f32 = 32 ∨ (Rect.block (s := S64x3) S64x3.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3.size a ≤ S3.size a
  hwx0_11 : ∀ i : grid0.Coords, EltTy.bits .f32 = 32 ∨ (Rect.block (s := S3) S3.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x16.size a ≤ S1048576x16.size a
  hwx0_12 : ∀ i : grid0.Coords, EltTy.bits .f32 = 32 ∨ (Rect.block (s := S1048576x16) S4096x16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096x3.size a ≤ S1048576x3.size a
  hwx0_13 : ∀ i : grid0.Coords, EltTy.bits .f32 = 32 ∨ (Rect.block (s := S1048576x3) S4096x3.size (cc0_transform_13 i) (hinb0_13 i)).WholeWords (EltTy.packing .f32)

variable [Facts₀]

def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf

abbrev win0_0 : Pipeline.Window sig grid0 :=
  Pipeline.Window.ofSpec (Memref.whole main_arg0) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0_0) S4096x16.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_1) S4096x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S1048576x3 : Shape := ⟨2, ![1048576, 3]⟩
abbrev S32x64 : Shape := ⟨2, ![32, 64]⟩
abbrev S64 : Shape := ⟨1, ![64]⟩
abbrev S64x16 : Shape := ⟨2, ![64, 16]⟩
abbrev S16 : Shape := ⟨1, ![16]⟩
abbrev S64x64 : Shape := ⟨2, ![64, 64]⟩
abbrev S64x3 : Shape := ⟨2, ![64, 3]⟩
abbrev S3 : Shape := ⟨1, ![3]⟩
abbrev S1048576x64 : Shape := ⟨2, ![1048576, 64]⟩
abbrev S1x64 : Shape := ⟨2, ![1, 64]⟩
abbrev S_ : Shape := ⟨0, ![]⟩
abbrev S1048576x16 : Shape := ⟨2, ![1048576, 16]⟩
abbrev S1x16 : Shape := ⟨2, ![1, 16]⟩
abbrev S1048576x1 : Shape := ⟨2, ![1048576, 1]⟩
abbrev S1048576 : Shape := ⟨1, ![1048576]⟩
abbrev S1x3 : Shape := ⟨2, ![1, 3]⟩

abbrev nBuf : Space → Nat
  | .hbm => 165
  | .vmem => 0
  | .smem => 0
  | _ => 0

abbrev hbmTy0_0 (i : Nat) : BufTy := match i % 128 with
  | 0 => ⟨S1048576x32, .f32⟩
  | 1 => ⟨S1048576x3, .f32⟩
  | 2 => ⟨S32x64, .f32⟩
  | 3 => ⟨S64, .f32⟩
  | 4 => ⟨S64x16, .f32⟩
  | 5 => ⟨S16, .f32⟩
  | 6 => ⟨S32x64, .f32⟩
  | 7 => ⟨S64, .f32⟩
  | 8 => ⟨S64x64, .f32⟩
  | 9 => ⟨S64, .f32⟩
  | 10 => ⟨S64x3, .f32⟩
  | 11 => ⟨S3, .f32⟩
  | 12 => ⟨S1048576x64, .f32⟩
  | 13 => ⟨S1x64, .f32⟩
  | 14 => ⟨S1048576x64, .f32⟩
  | 15 => ⟨S1048576x64, .f32⟩
  | 16 => ⟨S_, .f32⟩
  | 17 => ⟨S1048576x64, .f32⟩
  | 18 => ⟨S1048576x64, .f32⟩
  | 19 => ⟨S1048576x16, .f32⟩
  | 20 => ⟨S1x16, .f32⟩
  | 21 => ⟨S1048576x16, .f32⟩
  | 22 => ⟨S1048576x16, .f32⟩
  | 23 => ⟨S1048576x1, .f32⟩
  | 24 => ⟨S1048576, .f32⟩
  | 25 => ⟨S1048576x1, .f32⟩
  | 26 => ⟨S1048576, .f32⟩
  | 27 => ⟨S1048576x1, .f32⟩
  | 28 => ⟨S1048576, .f32⟩
  | 29 => ⟨S1048576, .f32⟩
  | 30 => ⟨S1048576, .f32⟩
  | 31 => ⟨S1048576, .f32⟩
  | 32 => ⟨S_, .f32⟩
  | 33 => ⟨S1048576, .f32⟩
  | 34 => ⟨S_, .f32⟩
  | 35 => ⟨S1048576, .f32⟩
  | 36 => ⟨S1048576, .f32⟩
  | 37 => ⟨S_, .f32⟩
  | 38 => ⟨S1048576, .f32⟩
  | 39 => ⟨S1048576, .f32⟩
  | 40 => ⟨S_, .f32⟩
  | 41 => ⟨S1048576, .f32⟩
  | 42 => ⟨S1048576, .f32⟩
  | 43 => ⟨S_, .f32⟩
  | 44 => ⟨S1048576, .f32⟩
  | 45 => ⟨S1048576, .f32⟩
  | 46 => ⟨S1048576, .f32⟩
  | 47 => ⟨S_, .f32⟩
  | 48 => ⟨S1048576, .f32⟩
  | 49 => ⟨S1048576, .f32⟩
  | 50 => ⟨S1048576, .f32⟩
  | 51 => ⟨S_, .f32⟩
  | 52 => ⟨S1048576, .f32⟩
  | 53 => ⟨S1048576, .f32⟩
  | 54 => ⟨S_, .f32⟩
  | 55 => ⟨S1048576, .f32⟩
  | 56 => ⟨S1048576, .f32⟩
  | 57 => ⟨S_, .f32⟩
  | 58 => ⟨S1048576, .f32⟩
  | 59 => ⟨S1048576, .f32⟩
  | 60 => ⟨S1048576, .f32⟩
  | 61 => ⟨S1048576, .f32⟩
  | 62 => ⟨S_, .f32⟩
  | 63 => ⟨S1048576, .f32⟩
  | 64 => ⟨S1048576, .f32⟩
  | 65 => ⟨S_, .f32⟩
  | 66 => ⟨S1048576, .f32⟩
  | 67 => ⟨S1048576, .f32⟩
  | 68 => ⟨S_, .f32⟩
  | 69 => ⟨S1048576, .f32⟩
  | 70 => ⟨S1048576, .f32⟩
  | 71 => ⟨S1048576, .f32⟩
  | 72 => ⟨S1048576, .f32⟩
  | 73 => ⟨S_, .f32⟩
  | 74 => ⟨S1048576, .f32⟩
  | 75 => ⟨S1048576, .f32⟩
  | 76 => ⟨S1048576, .f32⟩
  | 77 => ⟨S1048576, .f32⟩
  | 78 => ⟨S_, .f32⟩
  | 79 => ⟨S1048576, .f32⟩
  | 80 => ⟨S1048576, .f32⟩
  | 81 => ⟨S_, .f32⟩
  | 82 => ⟨S1048576, .f32⟩
  | 83 => ⟨S1048576, .f32⟩
  | 84 => ⟨S_, .f32⟩
  | 85 => ⟨S1048576, .f32⟩
  | 86 => ⟨S1048576, .f32⟩
  | 87 => ⟨S1048576, .f32⟩
  | 88 => ⟨S_, .f32⟩
  | 89 => ⟨S1048576, .f32⟩
  | 90 => ⟨S1048576, .f32⟩
  | 91 => ⟨S_, .f32⟩
  | 92 => ⟨S1048576, .f32⟩
  | 93 => ⟨S1048576, .f32⟩
  | 94 => ⟨S_, .f32⟩
  | 95 => ⟨S1048576, .f32⟩
  | 96 => ⟨S1048576, .f32⟩
  | 97 => ⟨S1048576, .f32⟩
  | 98 => ⟨S_, .f32⟩
  | 99 => ⟨S1048576, .f32⟩
  | 100 => ⟨S1048576, .f32⟩
  | 101 => ⟨S_, .f32⟩
  | 102 => ⟨S1048576, .f32⟩
  | 103 => ⟨S1048576, .f32⟩
  | 104 => ⟨S_, .f32⟩
  | 105 => ⟨S1048576, .f32⟩
  | 106 => ⟨S1048576, .f32⟩
  | 107 => ⟨S1048576, .f32⟩
  | 108 => ⟨S_, .f32⟩
  | 109 => ⟨S1048576, .f32⟩
  | 110 => ⟨S1048576, .f32⟩
  | 111 => ⟨S1048576, .f32⟩
  | 112 => ⟨S1048576, .f32⟩
  | 113 => ⟨S_, .f32⟩
  | 114 => ⟨S1048576, .f32⟩
  | 115 => ⟨S1048576, .f32⟩
  | 116 => ⟨S_, .f32⟩
  | 117 => ⟨S1048576, .f32⟩
  | 118 => ⟨S1048576, .f32⟩
  | 119 => ⟨S1048576, .f32⟩
  | 120 => ⟨S1048576, .f32⟩
  | 121 => ⟨S1048576x1, .f32⟩
  | 122 => ⟨S1048576x1, .f32⟩
  | 123 => ⟨S1048576x1, .f32⟩
  | 124 => ⟨S1048576x1, .f32⟩
  | 125 => ⟨S1048576x1, .f32⟩
  | 126 => ⟨S1048576x1, .f32⟩
  | 127 => ⟨S1048576x1, .f32⟩
  | _ => ⟨S1048576x32, .f32⟩

abbrev hbmTy0_1 (i : Nat) : BufTy := match i % 128 with
  | 0 => ⟨S1048576x1, .f32⟩
  | 1 => ⟨S1048576x1, .f32⟩
  | 2 => ⟨S1048576x1, .f32⟩
  | 3 => ⟨S1048576x1, .f32⟩
  | 4 => ⟨S1048576x1, .f32⟩
  | 5 => ⟨S1048576x1, .f32⟩
  | 6 => ⟨S1048576x1, .f32⟩
  | 7 => ⟨S1048576x1, .f32⟩
  | 8 => ⟨S1048576x1, .f32⟩
  | 9 => ⟨S1048576x16, .f32⟩
  | 10 => ⟨S1048576x32, .f32⟩
  | 11 => ⟨S1048576x64, .f32⟩
  | 12 => ⟨S1x64, .f32⟩
  | 13 => ⟨S1048576x64, .f32⟩
  | 14 => ⟨S1048576x64, .f32⟩
  | 15 => ⟨S_, .f32⟩
  | 16 => ⟨S1048576x64, .f32⟩
  | 17 => ⟨S1048576x64, .f32⟩
  | 18 => ⟨S1048576x64, .f32⟩
  | 19 => ⟨S1x64, .f32⟩
  | 20 => ⟨S1048576x64, .f32⟩
  | 21 => ⟨S1048576x64, .f32⟩
  | 22 => ⟨S_, .f32⟩
  | 23 => ⟨S1048576x64, .f32⟩
  | 24 => ⟨S1048576x64, .f32⟩
  | 25 => ⟨S1048576x3, .f32⟩
  | 26 => ⟨S1x3, .f32⟩
  | 27 => ⟨S1048576x3, .f32⟩
  | 28 => ⟨S1048576x3, .f32⟩
  | 29 => ⟨S1048576x3, .f32⟩
  | 30 => ⟨S1048576x3, .f32⟩
  | 31 => ⟨S_, .f32⟩
  | 32 => ⟨S1048576x3, .f32⟩
  | 33 => ⟨S1048576x3, .f32⟩
  | 34 => ⟨S_, .f32⟩
  | 35 => ⟨S1048576x3, .f32⟩
  | 36 => ⟨S1048576x3, .f32⟩
  | _ => ⟨S1048576x32, .f32⟩

abbrev hbmTy (i : Nat) : BufTy := match i / 128 with
  | 0 => hbmTy0_0 i
  | 1 => hbmTy0_1 i
  | _ => ⟨S1048576x32, .f32⟩

abbrev bufTy : (tb : Table) → Fin (tcTables nBuf tb) → BufTy
  | .hbm, ⟨i, _⟩ => hbmTy i
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_cst_13 : Ref sig .tc := ⟨.hbm, 81, rfl⟩
abbrev main_v53 : Ref sig .tc := ⟨.hbm, 82, rfl⟩
abbrev main_v54 : Ref sig .tc := ⟨.hbm, 83, rfl⟩
abbrev main_cst_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_15 : Ref sig .tc := ⟨.hbm, 88, rfl⟩
abbrev main_v58 : Ref sig .tc := ⟨.hbm, 89, rfl⟩
abbrev main_v59 : Ref sig .tc := ⟨.hbm, 90, rfl⟩
abbrev main_cst_16 : Ref sig .tc := ⟨.hbm, 91, rfl⟩
abbrev main_v60 : Ref sig .tc := ⟨.hbm, 92, rfl⟩
abbrev main_v61 : Ref sig .tc := ⟨.hbm, 93, rfl⟩
abbrev main_cst_17 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_18 : Ref sig .tc := ⟨.hbm, 98, rfl⟩
abbrev main_v65 : Ref sig .tc := ⟨.hbm, 99, rfl⟩
abbrev main_v66 : Ref sig .tc := ⟨.hbm, 100, rfl⟩
abbrev main_cst_19 : Ref sig .tc := ⟨.hbm, 101, rfl⟩
abbrev main_v67 : Ref sig .tc := ⟨.hbm, 102, rfl⟩
abbrev main_v68 : Ref sig .tc := ⟨.hbm, 103, rfl⟩
abbrev main_cst_20 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_21 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_22 : Ref sig .tc := ⟨.hbm, 113, rfl⟩
abbrev main_v76 : Ref sig .tc := ⟨.hbm, 114, rfl⟩
abbrev main_v77 : Ref sig .tc := ⟨.hbm, 115, rfl⟩
abbrev main_cst_23 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_call1_cst : Ref sig .tc := ⟨.hbm, 143, rfl⟩
abbrev main_call1_v0 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_call2_cst : Ref sig .tc := ⟨.hbm, 150, rfl⟩
abbrev main_call2_v0 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_24 : Ref sig .tc := ⟨.hbm, 159, rfl⟩
abbrev main_v116 : Ref sig .tc := ⟨.hbm, 160, rfl⟩
abbrev main_v117 : Ref sig .tc := ⟨.hbm, 161, rfl⟩
abbrev main_cst_25 : Ref sig .tc := ⟨.hbm, 162, rfl⟩
abbrev main_v118 : Ref sig .tc := ⟨.hbm, 163, rfl⟩
abbrev main_v119 : Ref sig .tc := ⟨.hbm, 164, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x1_S1048576x1_S1048576x1_S1048576x1_S1048576x1_S1048576x1_S1048576x1_S1048576x1_S1048576x1_S1048576x1_S1048576x1_S1048576x1_S1048576x1_S1048576x1_S1048576x16_d1 : Shape.Concatenates [S1048576x1, S1048576x1, S1048576x1, S1048576x1, S1048576x1, S1048576x1, S1048576x1, S1048576x1, S1048576x1, S1048576x1, S1048576x1, S1048576x1, S1048576x1, S1048576x1, S1048576x1, S1048576x1] S1048576x16 1
  concatenates_S1048576x16_S1048576x16_S1048576x32_d1 : Shape.Concatenates [S1048576x16, S1048576x16] S1048576x32 1
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  bcast_S_S1048576x3 : S_.BroadcastsInDim S1048576x3 (![] : Fin 0 → Fin S1048576x3.rank)
  dot_S1048576x32_S32x64_S1048576x64_1_0_0_1_n_n_wf : DotDims.WF S1048576x32 S32x64 S1048576x64 [1] [0] [0] [1] [] []
  dot_S1048576x64_S64x16_S1048576x16_1_0_0_1_n_n_wf : DotDims.WF S1048576x64 S64x16 S1048576x16 [1] [0] [0] [1] [] []
  dot_S1048576x64_S64x64_S1048576x64_1_0_0_1_n_n_wf : DotDims.WF S1048576x64 S64x64 S1048576x64 [1] [0] [0] [1] [] []
  dot_S1048576x64_S64x3_S1048576x3_1_0_0_1_n_n_wf : DotDims.WF S1048576x64 S64x3 S1048576x3 [1] [0] [0] [1] [] []

variable [Facts₀]

def dot_S1048576x32_S32x64_S1048576x64_1_0_0_1_n_n : DotDims S1048576x32 S32x64 S1048576x64 where
  lhsContracting := [1]
  rhsContracting := [0]
  lhsNonContracting := [0]
  rhsNonContracting := [1]
  lhsBatch := []
  rhsBatch := []
  wf := dot_S1048576x32_S32x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf

class Facts : Prop extends Facts₀ where

variable [Facts]
-- ==== Proof.Spec.lean ====
/-
  The network both programs compute, written once for any number of rows.

  Every output row depends on one input row only: a row of 32 position features goes through a dense layer to 64
  hidden units, a rectifier, and a second dense layer to the 16 density features; the row's direction (x, y, z) gives
  the 16 real spherical harmonics up to degree 3, each a polynomial in x, y, z with fixed binary32 coefficients; the 32
  numbers (density features, then harmonics) go through three more dense layers (64, 64, 3 units, a rectifier after the
  first two) and the logistic function gives the colour.  A dense layer is the plain sum  Σₖ x(r,k)·W(k,j) + b(j)  on
  the extended reals; no law beyond reading each operation entry by entry is used, so finiteness is never needed.

  Because rows do not interact, restricting the inputs to a set of rows restricts the outputs to the same rows
  (the lemmas on Sub): this is what lets a block of rows computed alone be read as rows of the whole result.
-/
import Idealize.ShloMosaic.Lib.ValueIdx
import Idealize.ShloMosaic.PureOps.Ideal
import Idealize.ShloMosaic.PureOps.Ideal.Laws

noncomputable section

namespace Cert.Mlp

open Idealize.ShloMosaic Idealize.ShloMosaic.ValueIdx
open scoped BigOperators

/-- An R-by-C matrix of extended reals. -/
abbrev Mat (R C : ℕ) : Type := (⟨2, ![R, C]⟩ : Shape).Idx → EReal
/-- A vector of C extended reals. -/
abbrev Vct (C : ℕ) : Type := (⟨1, ![C]⟩ : Shape).Idx → EReal

/-- The binary32 word w as an extended real. -/
abbrev lit (w : BitVec 32) : EReal := Ideal.ofBits .f32 w

/-- A dense layer: entry (r, j) is  Σₖ X(r,k)·W(k,j) + b(j). -/
def layer {R K J : ℕ} (X : Mat R K) (W : Mat K J) (b : Vct J) : Mat R J :=
  fun i => (∑ k : Fin K, X (ix2 (i 0) k) * W (ix2 k (i 1))) + b (ix1 (i 1))

/-- The rectifier, entry by entry: the larger of the entry and the zero word. -/
def reluOf {R C : ℕ} (X : Mat R C) : Mat R C := fun i => max (X i) (lit 0x00000000#32)

/-- The 16 real spherical harmonics of degree at most 3 at the direction (x, y, z), with their binary32 coefficients,
    in the order and with the grouping of products both programs use. -/
def sh (x y z : EReal) (q : Fin 16) : EReal :=
  [lit 0x3E906EBB#32,
    lit 0x3EFA2A1C#32 * y,
    lit 0x3EFA2A1C#32 * z,
    lit 0x3EFA2A1C#32 * x,
    lit 0x3F8BD8A1#32 * x * y,
    lit 0x3F8BD8A1#32 * y * z,
    lit 0x3F723881#32 * (z * z) - lit 0x3EA17B01#32,
    lit 0x3F8BD8A1#32 * x * z,
    lit 0x3F0BD8A1#32 * (x * x - y * y),
    lit 0x3F170D19#32 * y * (lit 0x40400000#32 * (x * x) - y * y),
    lit 0x4038FFC7#32 * x * y * z,
    lit 0x3EEA01E8#32 * y * (lit 0x40A00000#32 * (z * z) - lit 0x3F800000#32),
    lit 0x3EBF10F8#32 * z * (lit 0x40A00000#32 * (z * z) - lit 0x40400000#32),
    lit 0x3EEA01E8#32 * x * (lit 0x40A00000#32 * (z * z) - lit 0x3F800000#32),
    lit 0x3FB8FFC7#32 * z * (x * x - y * y),
    lit 0x3F170D19#32 * x * (x * x - lit 0x40400000#32 * (y * y))].getD q.val 0

/-- The harmonics of every row's direction. -/
def encOf {R : ℕ} (D : Mat R 3) : Mat R 16 :=
  fun i => sh (D (ix2 (i 0) (0 : Fin 3))) (D (ix2 (i 0) (1 : Fin 3))) (D (ix2 (i 0) (2 : Fin 3))) (i 1)

/-- Two 16-column matrices side by side: columns 0–15 are A's, columns 16–31 are B's. -/
def catOf {R : ℕ} (A B : Mat R 16) : Mat R 32 := fun i =>
  if h : (i 1).val < 16 then A (ix2 (i 0) ⟨(i 1).val, h⟩)
  else B (ix2 (i 0) ⟨(i 1).val - 16, by have h2 : (i 1).val < 32 := (i 1).isLt; omega⟩)

/-- The density features: two dense layers with a rectifier between them. -/
def densityOf {R : ℕ} (P : Mat R 32) (W1 : Mat 32 64) (b1 : Vct 64) (W2 : Mat 64 16) (b2 : Vct 16) : Mat R 16 :=
  layer (reluOf (layer P W1 b1)) W2 b2

/-- The colour before the logistic function: three dense layers over the density features joined with the harmonics. -/
def colorPre {R : ℕ} (P : Mat R 32) (D : Mat R 3) (W1 : Mat 32 64) (b1 : Vct 64) (W2 : Mat 64 16) (b2 : Vct 16)
    (W3 : Mat 32 64) (b3 : Vct 64) (W4 : Mat 64 64) (b4 : Vct 64) (W5 : Mat 64 3) (b5 : Vct 3) : Mat R 3 :=
  layer (reluOf (layer (reluOf (layer (catOf (densityOf P W1 b1 W2 b2) (encOf D)) W3 b3)) W4 b4)) W5 b5

/-- The colour:  1 / (1 + e^(−c))  of the last layer, entry by entry. -/
def colorOf {R : ℕ} (P : Mat R 32) (D : Mat R 3) (W1 : Mat 32 64) (b1 : Vct 64) (W2 : Mat 64 16) (b2 : Vct 16)
    (W3 : Mat 32 64) (b3 : Vct 64) (W4 : Mat 64 64) (b4 : Vct 64) (W5 : Mat 64 3) (b5 : Vct 3) : Mat R 3 :=
  fun i => Ideal.logistic (colorPre P D W1 b1 W2 b2 W3 b3 W4 b4 W5 b5 i)

/-! ## Rows do not interact -/

/-- X' holds, at row p, row f p of X. -/
def Sub {R' R C : ℕ} (f : Fin R' → Fin R) (X' : Mat R' C) (X : Mat R C) : Prop :=
  ∀ (p : Fin R') (k : Fin C), X' (ix2 p k) = X (ix2 (f p) k)

variable {R' R : ℕ} {f : Fin R' → Fin R}

theorem Sub.layer {K J : ℕ} {X' : Mat R' K} {X : Mat R K} (h : Sub f X' X) (W : Mat K J) (b : Vct J) :
    Sub f (layer X' W b) (layer X W b) := fun p j => by
  show (∑ k : Fin K, X' (ix2 p k) * W (ix2 k j)) + b (ix1 j) = (∑ k : Fin K, X (ix2 (f p) k) * W (ix2 k j)) + b (ix1 j)
  simp only [h p]

theorem Sub.relu {C : ℕ} {X' : Mat R' C} {X : Mat R C} (h : Sub f X' X) : Sub f (reluOf X') (reluOf X) := fun p k => by
  show max (X' (ix2 p k)) _ = max (X (ix2 (f p) k)) _
  rw [h p k]

theorem Sub.enc {D' : Mat R' 3} {D : Mat R 3} (h : Sub f D' D) : Sub f (encOf D') (encOf D) := fun p k => by
  show sh (D' (ix2 p 0)) (D' (ix2 p 1)) (D' (ix2 p 2)) k = sh (D (ix2 (f p) 0)) (D (ix2 (f p) 1)) (D (ix2 (f p) 2)) k
  rw [h p 0, h p 1, h p 2]

theorem Sub.cat {A' B' : Mat R' 16} {A B : Mat R 16} (hA : Sub f A' A) (hB : Sub f B' B) :
    Sub f (catOf A' B') (catOf A B) := fun p k => by
  unfold catOf
  show (if h : k.val < 16 then A' (ix2 p ⟨k.val, h⟩) else B' (ix2 p ⟨k.val - 16, _⟩))
    = (if h : k.val < 16 then A (ix2 (f p) ⟨k.val, h⟩) else B (ix2 (f p) ⟨k.val - 16, _⟩))
  split
  · exact hA p _
  · exact hB p _

theorem Sub.density {P' : Mat R' 32} {P : Mat R 32} (h : Sub f P' P) (W1 : Mat 32 64) (b1 : Vct 64) (W2 : Mat 64 16)
    (b2 : Vct 16) : Sub f (densityOf P' W1 b1 W2 b2) (densityOf P W1 b1 W2 b2) :=
  ((h.layer W1 b1).relu).layer W2 b2

theorem Sub.color {P' : Mat R' 32} {P : Mat R 32} {D' : Mat R' 3} {D : Mat R 3} (hP : Sub f P' P) (hD : Sub f D' D)
    (W1 : Mat 32 64) (b1 : Vct 64) (W2 : Mat 64 16) (b2 : Vct 16) (W3 : Mat 32 64) (b3 : Vct 64) (W4 : Mat 64 64)
    (b4 : Vct 64) (W5 : Mat 64 3) (b5 : Vct 3) :
    Sub f (colorOf P' D' W1 b1 W2 b2 W3 b3 W4 b4 W5 b5) (colorOf P D W1 b1 W2 b2 W3 b3 W4 b4 W5 b5) := fun p k => by
  show Ideal.logistic (colorPre P' D' W1 b1 W2 b2 W3 b3 W4 b4 W5 b5 (ix2 p k))
    = Ideal.logistic (colorPre P D W1 b1 W2 b2 W3 b3 W4 b4 W5 b5 (ix2 (f p) k))
  exact congrArg Ideal.logistic
    ((((((hP.density W1 b1 W2 b2).cat hD.enc).layer W3 b3).relu.layer W4 b4).relu.layer W5 b5) p k)

/-- Sub at an index given by its coordinates. -/
theorem Sub.at {C : ℕ} {X' : Mat R' C} {X : Mat R C} (h : Sub f X' X) (y : (⟨2, ![R', C]⟩ : Shape).Idx)
    (i : (⟨2, ![R, C]⟩ : Shape).Idx) (h0 : i 0 = f (y 0)) (h1 : i 1 = y 1) : X' y = X i := by
  have e : i = ix2 (f (y 0)) (y 1) := by
    funext a
    match a with
    | ⟨0, _⟩ => exact h0
    | ⟨1, _⟩ => exact h1
  rw [e]
  exact (congrArg X' (eq_ix2 y)).trans (h (y 0) (y 1))

end Cert.Mlp

end
-- ==== Proof.LibConcat.lean ====
/-
  Matrices joined along their columns, read at an index.

  Two 16-column matrices side by side give a 32-column matrix whose column q is the first matrix's column q when
  q < 16 and the second's column q − 16 otherwise; sixteen one-column matrices side by side give a 16-column matrix whose
  column q is the q-th of them.  Both are stated for any number of rows.
-/
import Idealize.ShloMosaic.Lib.ValueIdx
import Idealize.ShloMosaic.Lib.Pipeline.Value

noncomputable section

namespace Cert.Concat

open Idealize.ShloMosaic Idealize.ShloMosaic.ValueIdx

variable {α : Type}

/-- Two 16-column matrices joined along the columns: entry (r, q) is the first matrix's entry (r, q) when q < 16 and
    the second's entry (r, q − 16) otherwise. -/
theorem concatenate_pair16_apply {R : ℕ} (A B : (⟨2, ![R, 16]⟩ : Shape).Idx → α)
    (h : Shape.Concatenates [(⟨2, ![R, 16]⟩ : Shape), (⟨2, ![R, 16]⟩ : Shape)] ⟨2, ![R, 32]⟩ 1)
    (i : (⟨2, ![R, 32]⟩ : Shape).Idx) :
    concatenate (⟨2, ![R, 32]⟩ : Shape) 1 [⟨(⟨2, ![R, 16]⟩ : Shape), A⟩, ⟨(⟨2, ![R, 16]⟩ : Shape), B⟩] h i
      = if hq : (i 1).val < 16 then A (ix2 (i 0) ⟨(i 1).val, hq⟩)
        else B (ix2 (i 0) ⟨(i 1).val - 16, by have h2 : (i 1).val < 32 := (i 1).isLt; omega⟩) := by
  have h2 : (i 1).val < 32 := (i 1).isLt
  split
  · rename_i hlt
    refine concatenate_pair_apply_left (1 : Fin 2) A B h i rfl _ fun b => ?_
    match b with
    | ⟨0, _⟩ => rfl
    | ⟨1, _⟩ => rfl
  · rename_i hge
    refine concatenate_pair_apply_right (1 : Fin 2) A B h i rfl rfl _ (fun b hb => ?_) ?_
    · match b with
      | ⟨0, _⟩ => rfl
      | ⟨1, _⟩ => exact absurd rfl hb
    · show (i 1).val - 16 + 16 = (i 1).val
      omega

/-- Sixteen one-column matrices joined along the columns: entry (r, q) is the q-th matrix's entry in row r.
    (The list of the sixteen is the family q ↦ q-th column laid out in order, for which joining unit-width pieces
    reads the piece the column coordinate names.) -/
theorem concatenate_cols16_apply {R : ℕ}
    (c0 c1 c2 c3 c4 c5 c6 c7 c8 c9 c10 c11 c12 c13 c14 c15 : (⟨2, ![R, 1]⟩ : Shape).Idx → α)
    (h : Shape.Concatenates (([⟨(⟨2, ![R, 1]⟩ : Shape), c0⟩, ⟨(⟨2, ![R, 1]⟩ : Shape), c1⟩, ⟨(⟨2, ![R, 1]⟩ : Shape), c2⟩, ⟨(⟨2, ![R, 1]⟩ : Shape), c3⟩, ⟨(⟨2, ![R, 1]⟩ : Shape), c4⟩, ⟨(⟨2, ![R, 1]⟩ : Shape), c5⟩, ⟨(⟨2, ![R, 1]⟩ : Shape), c6⟩, ⟨(⟨2, ![R, 1]⟩ : Shape), c7⟩, ⟨(⟨2, ![R, 1]⟩ : Shape), c8⟩, ⟨(⟨2, ![R, 1]⟩ : Shape), c9⟩, ⟨(⟨2, ![R, 1]⟩ : Shape), c10⟩, ⟨(⟨2, ![R, 1]⟩ : Shape), c11⟩, ⟨(⟨2, ![R, 1]⟩ : Shape), c12⟩, ⟨(⟨2, ![R, 1]⟩ : Shape), c13⟩, ⟨(⟨2, ![R, 1]⟩ : Shape), c14⟩, ⟨(⟨2, ![R, 1]⟩ : Shape), c15⟩] : List ((s : Shape) × (s.Idx → α))).map (·.1)) ⟨2, ![R, 16]⟩ 1)
    (r : Fin R) (q : Fin 16) :
    concatenate (⟨2, ![R, 16]⟩ : Shape) 1 ([⟨(⟨2, ![R, 1]⟩ : Shape), c0⟩, ⟨(⟨2, ![R, 1]⟩ : Shape), c1⟩, ⟨(⟨2, ![R, 1]⟩ : Shape), c2⟩, ⟨(⟨2, ![R, 1]⟩ : Shape), c3⟩, ⟨(⟨2, ![R, 1]⟩ : Shape), c4⟩, ⟨(⟨2, ![R, 1]⟩ : Shape), c5⟩, ⟨(⟨2, ![R, 1]⟩ : Shape), c6⟩, ⟨(⟨2, ![R, 1]⟩ : Shape), c7⟩, ⟨(⟨2, ![R, 1]⟩ : Shape), c8⟩, ⟨(⟨2, ![R, 1]⟩ : Shape), c9⟩, ⟨(⟨2, ![R, 1]⟩ : Shape), c10⟩, ⟨(⟨2, ![R, 1]⟩ : Shape), c11⟩, ⟨(⟨2, ![R, 1]⟩ : Shape), c12⟩, ⟨(⟨2, ![R, 1]⟩ : Shape), c13⟩, ⟨(⟨2, ![R, 1]⟩ : Shape), c14⟩, ⟨(⟨2, ![R, 1]⟩ : Shape), c15⟩] : List ((s : Shape) × (s.Idx → α))) h (ix2 r q)
      = ([c0, c1, c2, c3, c4, c5, c6, c7, c8, c9, c10, c11, c12, c13, c14, c15][q.val]'q.isLt) (ix2 r (0 : Fin 1)) := by
  have key := concatenate_ofFn_unit_apply (α := α) (t := (⟨2, ![R, 16]⟩ : Shape)) (s₁ := (⟨2, ![R, 1]⟩ : Shape)) (1 : Fin 2) (N := 16)
    (fun n : Fin 16 => [c0, c1, c2, c3, c4, c5, c6, c7, c8, c9, c10, c11, c12, c13, c14, c15][n.val]'n.isLt)
  exact key h rfl rfl (ix2 r q) q rfl (ix2 r (0 : Fin 1))
    (fun b hb => by match b with | ⟨0, _⟩ => rfl | ⟨1, _⟩ => exact absurd rfl hb)

end Cert.Concat

end
-- ==== Proof.LibColumns.lean ====
/-
  Column vectors and row sums read at an index.

  A vector of length a viewed as a column [a, 1]; a column broadcast along its unit axis to [a, b]; and the sum of a
  matrix along its second axis, read at a row.  Each reads ONE entry (or one row) of its operand, named here by
  coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Columns

open Idealize.ShloMosaic Idealize.ShloMosaic.ValueIdx
open scoped BigOperators

variable {α : Type}

/-- A vector of length `a` viewed as a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, n]` matrix of extended reals along its second axis, started from the zero word and read at row
    `r`, is `∑ₖ v(r, k)`. -/
theorem multiReduction_add_row {a n : ℕ} (v : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ v 0x00000000#32 h hφ hacc (ix1 r) = ∑ k : Fin n, v (ix2 r k) := by
  refine (Ideal.multiReduction_add_single v 0x00000000#32 h hφ hacc (ix1 r)).trans ?_
  refine Finset.sum_congr rfl fun k _ => ?_
  exact congrArg v (funext fun ax => Fin.ext (by match ax with | ⟨0, _⟩ => rfl | ⟨1, _⟩ => rfl))

end Cert.Columns

end
-- ==== Proof.KernelBody.lean ====
/-
  The kernel's body at one grid point, read as the network of the specification on a block of 4096 rows.

  The body loads a block of 4096 position rows and 4096 direction rows and the ten weight and bias arrays whole, and
  stores two blocks.  Each matrix product accumulates into a zero block, so at an entry (r, j) it is the plain sum
  Σₖ x(r,k)·w(k,j); the narrowing of its operands to a shorter float format is the identity on the extended reals; the
  bias, a vector viewed as one row and repeated down the rows, adds b(j).  So each product-plus-bias is a dense layer of
  the specification.  The direction's three columns are cut out and flattened to vectors x, y, z; sixteen polynomials in
  them, each put back as a one-column matrix, are joined along the columns: the harmonics.  The density block and the
  harmonics joined along the columns feed three more layers, and the logistic function is applied entry by entry.
-/
import proofs.«120825_j76673756168435_1_alg».proof.Proof.Gen.KernelIdeal.Frame
import proofs.«120825_j76673756168435_1_alg».proof.Proof.Spec
import proofs.«120825_j76673756168435_1_alg».proof.Proof.LibConcat
import proofs.«120825_j76673756168435_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Mlp
open scoped BigOperators

/-! ## A matrix product into a zero block, plus a bias row, is a dense layer -/

/-- Which operand entries the product's entry (i, ·) and contraction position q meet: the left operand at (i₀, q), -/
theorem lhs_32_64_0 (i : S4096x64.Idx) (q : dot_S4096x32_S32x64_S4096x64_1_0_0_1_n_n.contr.Idx) :
    (dot_S4096x32_S32x64_S4096x64_1_0_0_1_n_n.lhsIdx i q 0).val = (i 0).val := by
  unfold DotDims.lhsIdx
  rw [dif_neg (show ¬(0 : Fin S4096x32.rank) ∈ dot_S4096x32_S32x64_S4096x64_1_0_0_1_n_n.lhsBatch by decide), dif_pos (show (0 : Fin S4096x32.rank) ∈ dot_S4096x32_S32x64_S4096x64_1_0_0_1_n_n.lhsNonContracting by decide)]
  rfl
theorem lhs_32_64_1 (i : S4096x64.Idx) (q : dot_S4096x32_S32x64_S4096x64_1_0_0_1_n_n.contr.Idx) :
    (dot_S4096x32_S32x64_S4096x64_1_0_0_1_n_n.lhsIdx i q 1).val = (q ⟨0, by decide⟩).val :=
  dot_S4096x32_S32x64_S4096x64_1_0_0_1_n_n.lhsIdx_val_of_single rfl i q
/-- and the right operand at (q, i₁). -/
theorem rhs_32_64_0 (i : S4096x64.Idx) (q : dot_S4096x32_S32x64_S4096x64_1_0_0_1_n_n.contr.Idx) :
    (dot_S4096x32_S32x64_S4096x64_1_0_0_1_n_n.rhsIdx i q 0).val = (q ⟨0, by decide⟩).val :=
  dot_S4096x32_S32x64_S4096x64_1_0_0_1_n_n.rhsIdx_val_of_single rfl i q
theorem rhs_32_64_1 (i : S4096x64.Idx) (q : dot_S4096x32_S32x64_S4096x64_1_0_0_1_n_n.contr.Idx) :
    (dot_S4096x32_S32x64_S4096x64_1_0_0_1_n_n.rhsIdx i q 1).val = (i 1).val := by
  unfold DotDims.rhsIdx
  rw [dif_neg (show ¬(1 : Fin S32x64.rank) ∈ dot_S4096x32_S32x64_S4096x64_1_0_0_1_n_n.rhsBatch by decide), dif_pos (show (1 : Fin S32x64.rank) ∈ dot_S4096x32_S32x64_S4096x64_1_0_0_1_n_n.rhsNonContracting by decide)]
  rfl

/-- The [4096,32] by [32,64] product into a zero block, at entry i: Σₖ l(i₀,k)·r(k,i₁). -/
theorem matmul_32_64_apply {φ₁ φ₂ : FTy} (l : FVec Ideal S4096x32 φ₁) (w : FVec Ideal S32x64 φ₂) (i : S4096x64.Idx) :
    matmul dot_S4096x32_S32x64_S4096x64_1_0_0_1_n_n none l w (constant S4096x64 .f32 0x00000000#32) i
      = ∑ k : Fin 32, l (ix2 (i 0) k) * w (ix2 k (i 1)) := by
  simp only [matmul]
  rw [Ideal.matmul_constant_zero_apply, ← Equiv.sum_comp (ValueIdx.contrEquiv1 dot_S4096x32_S32x64_S4096x64_1_0_0_1_n_n 32 rfl rfl).symm]
  refine Finset.sum_congr rfl fun k _ => ?_
  have hk := ValueIdx.contrEquiv1_symm_val dot_S4096x32_S32x64_S4096x64_1_0_0_1_n_n 32 rfl rfl k
  have el : dot_S4096x32_S32x64_S4096x64_1_0_0_1_n_n.lhsIdx i ((ValueIdx.contrEquiv1 dot_S4096x32_S32x64_S4096x64_1_0_0_1_n_n 32 rfl rfl).symm k) = ix2 (i 0) k := funext fun a => Fin.ext (by
    match a with
    | ⟨0, _⟩ => exact lhs_32_64_0 _ _
    | ⟨1, _⟩ => exact (lhs_32_64_1 _ _).trans hk)
  have er : dot_S4096x32_S32x64_S4096x64_1_0_0_1_n_n.rhsIdx i ((ValueIdx.contrEquiv1 dot_S4096x32_S32x64_S4096x64_1_0_0_1_n_n 32 rfl rfl).symm k) = ix2 k (i 1) := funext fun a => Fin.ext (by
    match a with
    | ⟨0, _⟩ => exact (rhs_32_64_0 _ _).trans hk
    | ⟨1, _⟩ => exact rhs_32_64_1 _ _)
  rw [el, er]
  rfl

/-- With the operands narrowed (the identity here) and the bias vector repeated down the rows, it is the dense layer. -/
theorem layer_32_64 (X : FVec Ideal S4096x32 .f32) (W : FVec Ideal S32x64 .f32) (b : FVec Ideal S64 .f32) :
    addf (matmul dot_S4096x32_S32x64_S4096x64_1_0_0_1_n_n none (truncf .bf16 X bitsLt_bf16_f32) (truncf .bf16 W bitsLt_bf16_f32) (constant S4096x64 .f32 0x00000000#32))
        (broadcastTo S4096x64 (shapeCast S1x64 b shapeCasts_S64_S1x64) broadcasts_S1x64_S4096x64)
      = layer X W b := by
  funext i
  obtain ⟨p, q, rfl⟩ : ∃ (p : Fin 4096) (q : Fin 64), i = ix2 p q := ⟨i 0, i 1, eq_ix2 i⟩
  rw [addf_apply, matmul_32_64_apply, broadcastTo_1b_ab_apply, shapeCast_a_1a_apply]
  rfl

/-- Which operand entries the product's entry (i, ·) and contraction position q meet: the left operand at (i₀, q), -/
theorem lhs_64_16_0 (i : S4096x16.Idx) (q : dot_S4096x64_S64x16_S4096x16_1_0_0_1_n_n.contr.Idx) :
    (dot_S4096x64_S64x16_S4096x16_1_0_0_1_n_n.lhsIdx i q 0).val = (i 0).val := by
  unfold DotDims.lhsIdx
  rw [dif_neg (show ¬(0 : Fin S4096x64.rank) ∈ dot_S4096x64_S64x16_S4096x16_1_0_0_1_n_n.lhsBatch by decide), dif_pos (show (0 : Fin S4096x64.rank) ∈ dot_S4096x64_S64x16_S4096x16_1_0_0_1_n_n.lhsNonContracting by decide)]
  rfl
theorem lhs_64_16_1 (i : S4096x16.Idx) (q : dot_S4096x64_S64x16_S4096x16_1_0_0_1_n_n.contr.Idx) :
    (dot_S4096x64_S64x16_S4096x16_1_0_0_1_n_n.lhsIdx i q 1).val = (q ⟨0, by decide⟩).val :=
  dot_S4096x64_S64x16_S4096x16_1_0_0_1_n_n.lhsIdx_val_of_single rfl i q
/-- and the right operand at (q, i₁). -/
theorem rhs_64_16_0 (i : S4096x16.Idx) (q : dot_S4096x64_S64x16_S4096x16_1_0_0_1_n_n.contr.Idx) :
    (dot_S4096x64_S64x16_S4096x16_1_0_0_1_n_n.rhsIdx i q 0).val = (q ⟨0, by decide⟩).val :=
  dot_S4096x64_S64x16_S4096x16_1_0_0_1_n_n.rhsIdx_val_of_single rfl i q
theorem rhs_64_16_1 (i : S4096x16.Idx) (q : dot_S4096x64_S64x16_S4096x16_1_0_0_1_n_n.contr.Idx) :
    (dot_S4096x64_S64x16_S4096x16_1_0_0_1_n_n.rhsIdx i q 1).val = (i 1).val := by
  unfold DotDims.rhsIdx
  rw [dif_neg (show ¬(1 : Fin S64x16.rank) ∈ dot_S4096x64_S64x16_S4096x16_1_0_0_1_n_n.rhsBatch by decide), dif_pos (show (1 : Fin S64x16.rank) ∈ dot_S4096x64_S64x16_S4096x16_1_0_0_1_n_n.rhsNonContracting by decide)]
  rfl

/-- The [4096,64] by [64,16] product into a zero block, at entry i: Σₖ l(i₀,k)·r(k,i₁). -/
theorem matmul_64_16_apply {φ₁ φ₂ : FTy} (l : FVec Ideal S4096x64 φ₁) (w : FVec Ideal S64x16 φ₂) (i : S4096x16.Idx) :
    matmul dot_S4096x64_S64x16_S4096x16_1_0_0_1_n_n none l w (constant S4096x16 .f32 0x00000000#32) i
      = ∑ k : Fin 64, l (ix2 (i 0) k) * w (ix2 k (i 1)) := by
  simp only [matmul]
  rw [Ideal.matmul_constant_zero_apply, ← Equiv.sum_comp (ValueIdx.contrEquiv1 dot_S4096x64_S64x16_S4096x16_1_0_0_1_n_n 64 rfl rfl).symm]
  refine Finset.sum_congr rfl fun k _ => ?_
  have hk := ValueIdx.contrEquiv1_symm_val dot_S4096x64_S64x16_S4096x16_1_0_0_1_n_n 64 rfl rfl k
  have el : dot_S4096x64_S64x16_S4096x16_1_0_0_1_n_n.lhsIdx i ((ValueIdx.contrEquiv1 dot_S4096x64_S64x16_S4096x16_1_0_0_1_n_n 64 rfl rfl).symm k) = ix2 (i 0) k := funext fun a => Fin.ext (by
    match a with
    | ⟨0, _⟩ => exact lhs_64_16_0 _ _
    | ⟨1, _⟩ => exact (lhs_64_16_1 _ _).trans hk)
  have er : dot_S4096x64_S64x16_S4096x16_1_0_0_1_n_n.rhsIdx i ((ValueIdx.contrEquiv1 dot_S4096x64_S64x16_S4096x16_1_0_0_1_n_n 64 rfl rfl).symm k) = ix2 k (i 1) := funext fun a => Fin.ext (by
    match a with
    | ⟨0, _⟩ => exact (rhs_64_16_0 _ _).trans hk
    | ⟨1, _⟩ => exact rhs_64_16_1 _ _)
  rw [el, er]
  rfl

/-- With the operands narrowed (the identity here) and the bias vector repeated down the rows, it is the dense layer. -/
theorem layer_64_16 (X : FVec Ideal S4096x64 .f32) (W : FVec Ideal S64x16 .f32) (b : FVec Ideal S16 .f32) :
    addf (matmul dot_S4096x64_S64x16_S4096x16_1_0_0_1_n_n none (truncf .bf16 X bitsLt_bf16_f32) (truncf .bf16 W bitsLt_bf16_f32) (constant S4096x16 .f32 0x00000000#32))
        (broadcastTo S4096x16 (shapeCast S1x16 b shapeCasts_S16_S1x16) broadcasts_S1x16_S4096x16)
      = layer X W b := by
  funext i
  obtain ⟨p, q, rfl⟩ : ∃ (p : Fin 4096) (q : Fin 16), i = ix2 p q := ⟨i 0, i 1, eq_ix2 i⟩
  rw [addf_apply, matmul_64_16_apply, broadcastTo_1b_ab_apply, shapeCast_a_1a_apply]
  rfl

/-- Which operand entries the product's entry (i, ·) and contraction position q meet: the left operand at (i₀, q), -/
theorem lhs_64_64_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_64_64_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
/-- and the right operand at (q, i₁). -/
theorem rhs_64_64_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs_64_64_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The [4096,64] by [64,64] product into a zero block, at entry i: Σₖ l(i₀,k)·r(k,i₁). -/
theorem matmul_64_64_apply {φ₁ φ₂ : FTy} (l : FVec Ideal S4096x64 φ₁) (w : FVec Ideal S64x64 φ₂) (i : S4096x64.Idx) :
    matmul dot_S4096x64_S64x64_S4096x64_1_0_0_1_n_n none l w (constant S4096x64 .f32 0x00000000#32) i
      = ∑ k : Fin 64, l (ix2 (i 0) k) * w (ix2 k (i 1)) := by
  simp only [matmul]
  rw [Ideal.matmul_constant_zero_apply, ← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx i ((ValueIdx.contrEquiv1 dot_S4096x64_S64x64_S4096x64_1_0_0_1_n_n 64 rfl rfl).symm k) = ix2 (i 0) k := funext fun a => Fin.ext (by
    match a with
    | ⟨0, _⟩ => exact lhs_64_64_0 _ _
    | ⟨1, _⟩ => exact (lhs_64_64_1 _ _).trans hk)
  have er : dot_S4096x64_S64x64_S4096x64_1_0_0_1_n_n.rhsIdx i ((ValueIdx.contrEquiv1 dot_S4096x64_S64x64_S4096x64_1_0_0_1_n_n 64 rfl rfl).symm k) = ix2 k (i 1) := funext fun a => Fin.ext (by
    match a with
    | ⟨0, _⟩ => exact (rhs_64_64_0 _ _).trans hk
    | ⟨1, _⟩ => exact rhs_64_64_1 _ _)
  rw [el, er]
  rfl

/-- With the operands narrowed (the identity here) and the bias vector repeated down the rows, it is the dense layer. -/
theorem layer_64_64 (X : FVec Ideal S4096x64 .f32) (W : FVec Ideal S64x64 .f32) (b : FVec Ideal S64 .f32) :
    addf (matmul dot_S4096x64_S64x64_S4096x64_1_0_0_1_n_n none (truncf .bf16 X bitsLt_bf16_f32) (truncf .bf16 W bitsLt_bf16_f32) (constant S4096x64 .f32 0x00000000#32))
        (broadcastTo S4096x64 (shapeCast S1x64 b shapeCasts_S64_S1x64) broadcasts_S1x64_S4096x64)
      = layer X W b := by
  funext i
  obtain ⟨p, q, rfl⟩ : ∃ (p : Fin 4096) (q : Fin 64), i = ix2 p q := ⟨i 0, i 1, eq_ix2 i⟩
  rw [addf_apply, matmul_64_64_apply, broadcastTo_1b_ab_apply, shapeCast_a_1a_apply]
  rfl

/-- Which operand entries the product's entry (i, ·) and contraction position q meet: the left operand at (i₀, q), -/
theorem lhs_64_3_0 (i : S4096x3.Idx) (q : dot_S4096x64_S64x3_S4096x3_1_0_0_1_n_n.contr.Idx) :
    (dot_S4096x64_S64x3_S4096x3_1_0_0_1_n_n.lhsIdx i q 0).val = (i 0).val := by
  unfold DotDims.lhsIdx
  rw [dif_neg (show ¬(0 : Fin S4096x64.rank) ∈ dot_S4096x64_S64x3_S4096x3_1_0_0_1_n_n.lhsBatch by decide), dif_pos (show (0 : Fin S4096x64.rank) ∈ dot_S4096x64_S64x3_S4096x3_1_0_0_1_n_n.lhsNonContracting by decide)]
  rfl
theorem lhs_64_3_1 (i : S4096x3.Idx) (q : dot_S4096x64_S64x3_S4096x3_1_0_0_1_n_n.contr.Idx) :
    (dot_S4096x64_S64x3_S4096x3_1_0_0_1_n_n.lhsIdx i q 1).val = (q ⟨0, by decide⟩).val :=
  dot_S4096x64_S64x3_S4096x3_1_0_0_1_n_n.lhsIdx_val_of_single rfl i q
/-- and the right operand at (q, i₁). -/
theorem rhs_64_3_0 (i : S4096x3.Idx) (q : dot_S4096x64_S64x3_S4096x3_1_0_0_1_n_n.contr.Idx) :
    (dot_S4096x64_S64x3_S4096x3_1_0_0_1_n_n.rhsIdx i q 0).val = (q ⟨0, by decide⟩).val :=
  dot_S4096x64_S64x3_S4096x3_1_0_0_1_n_n.rhsIdx_val_of_single rfl i q
theorem rhs_64_3_1 (i : S4096x3.Idx) (q : dot_S4096x64_S64x3_S4096x3_1_0_0_1_n_n.contr.Idx) :
    (dot_S4096x64_S64x3_S4096x3_1_0_0_1_n_n.rhsIdx i q 1).val = (i 1).val := by
  unfold DotDims.rhsIdx
  rw [dif_neg (show ¬(1 : Fin S64x3.rank) ∈ dot_S4096x64_S64x3_S4096x3_1_0_0_1_n_n.rhsBatch by decide), dif_pos (show (1 : Fin S64x3.rank) ∈ dot_S4096x64_S64x3_S4096x3_1_0_0_1_n_n.rhsNonContracting by decide)]
  rfl

/-- The [4096,64] by [64,3] product into a zero block, at entry i: Σₖ l(i₀,k)·r(k,i₁). -/
theorem matmul_64_3_apply {φ₁ φ₂ : FTy} (l : FVec Ideal S4096x64 φ₁) (w : FVec Ideal S64x3 φ₂) (i : S4096x3.Idx) :
    matmul dot_S4096x64_S64x3_S4096x3_1_0_0_1_n_n none l w (constant S4096x3 .f32 0x00000000#32) i
      = ∑ k : Fin 64, l (ix2 (i 0) k) * w (ix2 k (i 1)) := by
  simp only [matmul]
  rw [Ideal.matmul_constant_zero_apply, ← Equiv.sum_comp (ValueIdx.contrEquiv1 dot_S4096x64_S64x3_S4096x3_1_0_0_1_n_n 64 rfl rfl).symm]
  refine Finset.sum_congr rfl fun k _ => ?_
  have hk := ValueIdx.contrEquiv1_symm_val dot_S4096x64_S64x3_S4096x3_1_0_0_1_n_n 64 rfl rfl k
  have el : dot_S4096x64_S64x3_S4096x3_1_0_0_1_n_n.lhsIdx i ((ValueIdx.contrEquiv1 dot_S4096x64_S64x3_S4096x3_1_0_0_1_n_n 64 rfl rfl).symm k) = ix2 (i 0) k := funext fun a => Fin.ext (by
    match a with
    | ⟨0, _⟩ => exact lhs_64_3_0 _ _
    | ⟨1, _⟩ => exact (lhs_64_3_1 _ _).trans hk)
  have er : dot_S4096x64_S64x3_S4096x3_1_0_0_1_n_n.rhsIdx i ((ValueIdx.contrEquiv1 dot_S4096x64_S64x3_S4096x3_1_0_0_1_n_n 64 rfl rfl).symm k) = ix2 k (i 1) := funext fun a => Fin.ext (by
    match a with
    | ⟨0, _⟩ => exact (rhs_64_3_0 _ _).trans hk
    | ⟨1, _⟩ => exact rhs_64_3_1 _ _)
  rw [el, er]
  rfl

/-- With the operands narrowed (the identity here) and the bias vector repeated down the rows, it is the dense layer. -/
theorem layer_64_3 (X : FVec Ideal S4096x64 .f32) (W : FVec Ideal S64x3 .f32) (b : FVec Ideal S3 .f32) :
    addf (matmul dot_S4096x64_S64x3_S4096x3_1_0_0_1_n_n none (truncf .bf16 X bitsLt_bf16_f32) (truncf .bf16 W bitsLt_bf16_f32) (constant S4096x3 .f32 0x00000000#32))
        (broadcastTo S4096x3 (shapeCast S1x3 b shapeCasts_S3_S1x3) broadcasts_S1x3_S4096x3)
      = layer X W b := by
  funext i
  obtain ⟨p, q, rfl⟩ : ∃ (p : Fin 4096) (q : Fin 3), i = ix2 p q := ⟨i 0, i 1, eq_ix2 i⟩
  rw [addf_apply, matmul_64_3_apply, broadcastTo_1b_ab_apply, shapeCast_a_1a_apply]
  rfl

/-! ## The direction's columns and the harmonics -/

/-- A one-column matrix flattened to a vector reads, at r, the matrix's entry (r, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The direction block's first column as a vector: its entry r is x = d(r, 0). -/
theorem dir_x (d : FVec Ideal S4096x3 .f32) (p : Fin 4096) : k0_pay3 (F := Ideal) d (ix1 p) = d (ix2 p (0 : Fin 3)) := by
  show shapeCast S4096 (extractStridedSlice S4096x1 ![0, 0] d slices_S4096x3_o0_0_S4096x1) shapeCasts_S4096x1_S4096 (ix1 p) = _
  rw [shapeCast_a1_a_apply]
  exact extractStridedSlice_apply _ d _ _ _ (fun a => by
    match a with
    | ⟨0, _⟩ => show p.val = 0 + p.val; omega
    | ⟨1, _⟩ => rfl)

/-- The direction block's second column as a vector: its entry r is y = d(r, 1). -/
theorem dir_y (d : FVec Ideal S4096x3 .f32) (p : Fin 4096) : k0_pay4 (F := Ideal) d (ix1 p) = d (ix2 p (1 : Fin 3)) := by
  show shapeCast S4096 (extractStridedSlice S4096x1 ![0, 1] d slices_S4096x3_o0_1_S4096x1) shapeCasts_S4096x1_S4096 (ix1 p) = _
  rw [shapeCast_a1_a_apply]
  exact extractStridedSlice_apply _ d _ _ _ (fun a => by
    match a with
    | ⟨0, _⟩ => show p.val = 0 + p.val; omega
    | ⟨1, _⟩ => rfl)

/-- The direction block's third column as a vector: its entry r is z = d(r, 2). -/
theorem dir_z (d : FVec Ideal S4096x3 .f32) (p : Fin 4096) : k0_pay5 (F := Ideal) d (ix1 p) = d (ix2 p (2 : Fin 3)) := by
  show shapeCast S4096 (extractStridedSlice S4096x1 ![0, 2] d slices_S4096x3_o0_2_S4096x1) shapeCasts_S4096x1_S4096 (ix1 p) = _
  rw [shapeCast_a1_a_apply]
  exact extractStridedSlice_apply _ d _ _ _ (fun a => by
    match a with
    | ⟨0, _⟩ => show p.val = 0 + p.val; omega
    | ⟨1, _⟩ => rfl)

/-- Harmonic 0 of the block's row r, as the body computes its column vector. -/
theorem harm_0 (d : FVec Ideal S4096x3 .f32) (p : Fin 4096) :
    (k0_pay9 (F := Ideal)) (ix1 p) = sh (d (ix2 p (0 : Fin 3))) (d (ix2 p (1 : Fin 3))) (d (ix2 p (2 : Fin 3))) (0 : Fin 16) := by
  rfl

/-- Harmonic 1 of the block's row r, as the body computes its column vector. -/
theorem harm_1 (d : FVec Ideal S4096x3 .f32) (p : Fin 4096) :
    (k0_pay10 (F := Ideal) d) (ix1 p) = sh (d (ix2 p (0 : Fin 3))) (d (ix2 p (1 : Fin 3))) (d (ix2 p (2 : Fin 3))) (1 : Fin 16) := by
  show (lit 0x3EFA2A1C#32 * (k0_pay4 (F := Ideal) d (ix1 p)) : EReal) = _
  rw [dir_y d p]
  rfl

/-- Harmonic 2 of the block's row r, as the body computes its column vector. -/
theorem harm_2 (d : FVec Ideal S4096x3 .f32) (p : Fin 4096) :
    (k0_pay11 (F := Ideal) d) (ix1 p) = sh (d (ix2 p (0 : Fin 3))) (d (ix2 p (1 : Fin 3))) (d (ix2 p (2 : Fin 3))) (2 : Fin 16) := by
  show (lit 0x3EFA2A1C#32 * (k0_pay5 (F := Ideal) d (ix1 p)) : EReal) = _
  rw [dir_z d p]
  rfl

/-- Harmonic 3 of the block's row r, as the body computes its column vector. -/
theorem harm_3 (d : FVec Ideal S4096x3 .f32) (p : Fin 4096) :
    (k0_pay12 (F := Ideal) d) (ix1 p) = sh (d (ix2 p (0 : Fin 3))) (d (ix2 p (1 : Fin 3))) (d (ix2 p (2 : Fin 3))) (3 : Fin 16) := by
  show (lit 0x3EFA2A1C#32 * (k0_pay3 (F := Ideal) d (ix1 p)) : EReal) = _
  rw [dir_x d p]
  rfl

/-- Harmonic 4 of the block's row r, as the body computes its column vector. -/
theorem harm_4 (d : FVec Ideal S4096x3 .f32) (p : Fin 4096) :
    (k0_pay14 (F := Ideal) (k0_pay3 (F := Ideal) d) (k0_pay4 (F := Ideal) d) (k0_pay13 (F := Ideal))) (ix1 p) = sh (d (ix2 p (0 : Fin 3))) (d (ix2 p (1 : Fin 3))) (d (ix2 p (2 : Fin 3))) (4 : Fin 16) := by
  show (lit 0x3F8BD8A1#32 * (k0_pay3 (F := Ideal) d (ix1 p)) * (k0_pay4 (F := Ideal) d (ix1 p)) : EReal) = _
  rw [dir_x d p, dir_y d p]
  rfl

/-- Harmonic 5 of the block's row r, as the body computes its column vector. -/
theorem harm_5 (d : FVec Ideal S4096x3 .f32) (p : Fin 4096) :
    (k0_pay15 (F := Ideal) (k0_pay4 (F := Ideal) d) (k0_pay5 (F := Ideal) d)) (ix1 p) = sh (d (ix2 p (0 : Fin 3))) (d (ix2 p (1 : Fin 3))) (d (ix2 p (2 : Fin 3))) (5 : Fin 16) := by
  show (lit 0x3F8BD8A1#32 * (k0_pay4 (F := Ideal) d (ix1 p)) * (k0_pay5 (F := Ideal) d (ix1 p)) : EReal) = _
  rw [dir_y d p, dir_z d p]
  rfl

/-- Harmonic 6 of the block's row r, as the body computes its column vector. -/
theorem harm_6 (d : FVec Ideal S4096x3 .f32) (p : Fin 4096) :
    (k0_pay16 (F := Ideal) (k0_pay8 (F := Ideal) d)) (ix1 p) = sh (d (ix2 p (0 : Fin 3))) (d (ix2 p (1 : Fin 3))) (d (ix2 p (2 : Fin 3))) (6 : Fin 16) := by
  show (lit 0x3F723881#32 * ((k0_pay5 (F := Ideal) d (ix1 p)) * (k0_pay5 (F := Ideal) d (ix1 p))) - lit 0x3EA17B01#32 : EReal) = _
  rw [dir_z d p]
  rfl

/-- Harmonic 7 of the block's row r, as the body computes its column vector. -/
theorem harm_7 (d : FVec Ideal S4096x3 .f32) (p : Fin 4096) :
    (k0_pay17 (F := Ideal) (k0_pay3 (F := Ideal) d) (k0_pay5 (F := Ideal) d)) (ix1 p) = sh (d (ix2 p (0 : Fin 3))) (d (ix2 p (1 : Fin 3))) (d (ix2 p (2 : Fin 3))) (7 : Fin 16) := by
  show (lit 0x3F8BD8A1#32 * (k0_pay3 (F := Ideal) d (ix1 p)) * (k0_pay5 (F := Ideal) d (ix1 p)) : EReal) = _
  rw [dir_x d p, dir_z d p]
  rfl

/-- Harmonic 8 of the block's row r, as the body computes its column vector. -/
theorem harm_8 (d : FVec Ideal S4096x3 .f32) (p : Fin 4096) :
    (k0_pay18 (F := Ideal) (k0_pay6 (F := Ideal) d) (k0_pay7 (F := Ideal) d)) (ix1 p) = sh (d (ix2 p (0 : Fin 3))) (d (ix2 p (1 : Fin 3))) (d (ix2 p (2 : Fin 3))) (8 : Fin 16) := by
  show (lit 0x3F0BD8A1#32 * ((k0_pay3 (F := Ideal) d (ix1 p)) * (k0_pay3 (F := Ideal) d (ix1 p)) - (k0_pay4 (F := Ideal) d (ix1 p)) * (k0_pay4 (F := Ideal) d (ix1 p))) : EReal) = _
  rw [dir_x d p, dir_y d p]
  rfl

/-- Harmonic 9 of the block's row r, as the body computes its column vector. -/
theorem harm_9 (d : FVec Ideal S4096x3 .f32) (p : Fin 4096) :
    (k0_pay19 (F := Ideal) (k0_pay4 (F := Ideal) d) (k0_pay6 (F := Ideal) d) (k0_pay7 (F := Ideal) d)) (ix1 p) = sh (d (ix2 p (0 : Fin 3))) (d (ix2 p (1 : Fin 3))) (d (ix2 p (2 : Fin 3))) (9 : Fin 16) := by
  show (lit 0x3F170D19#32 * (k0_pay4 (F := Ideal) d (ix1 p)) * (lit 0x40400000#32 * ((k0_pay3 (F := Ideal) d (ix1 p)) * (k0_pay3 (F := Ideal) d (ix1 p))) - (k0_pay4 (F := Ideal) d (ix1 p)) * (k0_pay4 (F := Ideal) d (ix1 p))) : EReal) = _
  rw [dir_x d p, dir_y d p]
  rfl

/-- Harmonic 10 of the block's row r, as the body computes its column vector. -/
theorem harm_10 (d : FVec Ideal S4096x3 .f32) (p : Fin 4096) :
    (k0_pay20 (F := Ideal) (k0_pay3 (F := Ideal) d) (k0_pay4 (F := Ideal) d) (k0_pay5 (F := Ideal) d)) (ix1 p) = sh (d (ix2 p (0 : Fin 3))) (d (ix2 p (1 : Fin 3))) (d (ix2 p (2 : Fin 3))) (10 : Fin 16) := by
  show (lit 0x4038FFC7#32 * (k0_pay3 (F := Ideal) d (ix1 p)) * (k0_pay4 (F := Ideal) d (ix1 p)) * (k0_pay5 (F := Ideal) d (ix1 p)) : EReal) = _
  rw [dir_x d p, dir_y d p, dir_z d p]
  rfl

/-- Harmonic 11 of the block's row r, as the body computes its column vector. -/
theorem harm_11 (d : FVec Ideal S4096x3 .f32) (p : Fin 4096) :
    (k0_pay21 (F := Ideal) (k0_pay4 (F := Ideal) d) (k0_pay8 (F := Ideal) d)) (ix1 p) = sh (d (ix2 p (0 : Fin 3))) (d (ix2 p (1 : Fin 3))) (d (ix2 p (2 : Fin 3))) (11 : Fin 16) := by
  show (lit 0x3EEA01E8#32 * (k0_pay4 (F := Ideal) d (ix1 p)) * (lit 0x40A00000#32 * ((k0_pay5 (F := Ideal) d (ix1 p)) * (k0_pay5 (F := Ideal) d (ix1 p))) - lit 0x3F800000#32) : EReal) = _
  rw [dir_y d p, dir_z d p]
  rfl

/-- Harmonic 12 of the block's row r, as the body computes its column vector. -/
theorem harm_12 (d : FVec Ideal S4096x3 .f32) (p : Fin 4096) :
    (k0_pay22 (F := Ideal) (k0_pay5 (F := Ideal) d) (k0_pay8 (F := Ideal) d)) (ix1 p) = sh (d (ix2 p (0 : Fin 3))) (d (ix2 p (1 : Fin 3))) (d (ix2 p (2 : Fin 3))) (12 : Fin 16) := by
  show (lit 0x3EBF10F8#32 * (k0_pay5 (F := Ideal) d (ix1 p)) * (lit 0x40A00000#32 * ((k0_pay5 (F := Ideal) d (ix1 p)) * (k0_pay5 (F := Ideal) d (ix1 p))) - lit 0x40400000#32) : EReal) = _
  rw [dir_z d p]
  rfl

/-- Harmonic 13 of the block's row r, as the body computes its column vector. -/
theorem harm_13 (d : FVec Ideal S4096x3 .f32) (p : Fin 4096) :
    (mulf (k0_pay23 (F := Ideal) (k0_pay3 (F := Ideal) d)) (subf (k0_pay24 (F := Ideal) (k0_pay8 (F := Ideal) d)) (broadcast S4096 (FloatOps.ofBits (F := Ideal) .f32 0x3F800000#32)))) (ix1 p) = sh (d (ix2 p (0 : Fin 3))) (d (ix2 p (1 : Fin 3))) (d (ix2 p (2 : Fin 3))) (13 : Fin 16) := by
  show (lit 0x3EEA01E8#32 * (k0_pay3 (F := Ideal) d (ix1 p)) * (lit 0x40A00000#32 * ((k0_pay5 (F := Ideal) d (ix1 p)) * (k0_pay5 (F := Ideal) d (ix1 p))) - lit 0x3F800000#32) : EReal) = _
  rw [dir_x d p, dir_z d p]
  rfl

/-- Harmonic 14 of the block's row r, as the body computes its column vector. -/
theorem harm_14 (d : FVec Ideal S4096x3 .f32) (p : Fin 4096) :
    (mulf (mulf (broadcast S4096 (FloatOps.ofBits (F := Ideal) .f32 0x3FB8FFC7#32)) (k0_pay5 (F := Ideal) d)) (subf (k0_pay6 (F := Ideal) d) (k0_pay7 (F := Ideal) d))) (ix1 p) = sh (d (ix2 p (0 : Fin 3))) (d (ix2 p (1 : Fin 3))) (d (ix2 p (2 : Fin 3))) (14 : Fin 16) := by
  show (lit 0x3FB8FFC7#32 * (k0_pay5 (F := Ideal) d (ix1 p)) * ((k0_pay3 (F := Ideal) d (ix1 p)) * (k0_pay3 (F := Ideal) d (ix1 p)) - (k0_pay4 (F := Ideal) d (ix1 p)) * (k0_pay4 (F := Ideal) d (ix1 p))) : EReal) = _
  rw [dir_x d p, dir_y d p, dir_z d p]
  rfl

/-- Harmonic 15 of the block's row r, as the body computes its column vector. -/
theorem harm_15 (d : FVec Ideal S4096x3 .f32) (p : Fin 4096) :
    (mulf (mulf (broadcast S4096 (FloatOps.ofBits (F := Ideal) .f32 0x3F170D19#32)) (k0_pay3 (F := Ideal) d)) (subf (k0_pay6 (F := Ideal) d) (mulf (broadcast S4096 (FloatOps.ofBits (F := Ideal) .f32 0x40400000#32)) (k0_pay7 (F := Ideal) d)))) (ix1 p) = sh (d (ix2 p (0 : Fin 3))) (d (ix2 p (1 : Fin 3))) (d (ix2 p (2 : Fin 3))) (15 : Fin 16) := by
  show (lit 0x3F170D19#32 * (k0_pay3 (F := Ideal) d (ix1 p)) * ((k0_pay3 (F := Ideal) d (ix1 p)) * (k0_pay3 (F := Ideal) d (ix1 p)) - lit 0x40400000#32 * ((k0_pay4 (F := Ideal) d (ix1 p)) * (k0_pay4 (F := Ideal) d (ix1 p)))) : EReal) = _
  rw [dir_x d p, dir_y d p]
  rfl

/-- The sixteen column vectors, each put back as a one-column matrix and joined along the columns, are the harmonics
    of the block's rows. -/
theorem enc_block (d : FVec Ideal S4096x3 .f32) :
    concatenate S4096x16 1
      [⟨S4096x1, shapeCast S4096x1 (k0_pay9 (F := Ideal)) shapeCasts_S4096_S4096x1⟩,
      ⟨S4096x1, shapeCast S4096x1 (k0_pay10 (F := Ideal) d) shapeCasts_S4096_S4096x1⟩,
      ⟨S4096x1, shapeCast S4096x1 (k0_pay11 (F := Ideal) d) shapeCasts_S4096_S4096x1⟩,
      ⟨S4096x1, shapeCast S4096x1 (k0_pay12 (F := Ideal) d) shapeCasts_S4096_S4096x1⟩,
      ⟨S4096x1, shapeCast S4096x1 (k0_pay14 (F := Ideal) (k0_pay3 (F := Ideal) d) (k0_pay4 (F := Ideal) d) (k0_pay13 (F := Ideal))) shapeCasts_S4096_S4096x1⟩,
      ⟨S4096x1, shapeCast S4096x1 (k0_pay15 (F := Ideal) (k0_pay4 (F := Ideal) d) (k0_pay5 (F := Ideal) d)) shapeCasts_S4096_S4096x1⟩,
      ⟨S4096x1, shapeCast S4096x1 (k0_pay16 (F := Ideal) (k0_pay8 (F := Ideal) d)) shapeCasts_S4096_S4096x1⟩,
      ⟨S4096x1, shapeCast S4096x1 (k0_pay17 (F := Ideal) (k0_pay3 (F := Ideal) d) (k0_pay5 (F := Ideal) d)) shapeCasts_S4096_S4096x1⟩,
      ⟨S4096x1, shapeCast S4096x1 (k0_pay18 (F := Ideal) (k0_pay6 (F := Ideal) d) (k0_pay7 (F := Ideal) d)) shapeCasts_S4096_S4096x1⟩,
      ⟨S4096x1, shapeCast S4096x1 (k0_pay19 (F := Ideal) (k0_pay4 (F := Ideal) d) (k0_pay6 (F := Ideal) d) (k0_pay7 (F := Ideal) d)) shapeCasts_S4096_S4096x1⟩,
      ⟨S4096x1, shapeCast S4096x1 (k0_pay20 (F := Ideal) (k0_pay3 (F := Ideal) d) (k0_pay4 (F := Ideal) d) (k0_pay5 (F := Ideal) d)) shapeCasts_S4096_S4096x1⟩,
      ⟨S4096x1, shapeCast S4096x1 (k0_pay21 (F := Ideal) (k0_pay4 (F := Ideal) d) (k0_pay8 (F := Ideal) d)) shapeCasts_S4096_S4096x1⟩,
      ⟨S4096x1, shapeCast S4096x1 (k0_pay22 (F := Ideal) (k0_pay5 (F := Ideal) d) (k0_pay8 (F := Ideal) d)) shapeCasts_S4096_S4096x1⟩,
      ⟨S4096x1, shapeCast S4096x1 (mulf (k0_pay23 (F := Ideal) (k0_pay3 (F := Ideal) d)) (subf (k0_pay24 (F := Ideal) (k0_pay8 (F := Ideal) d)) (broadcast S4096 (FloatOps.ofBits (F := Ideal) .f32 0x3F800000#32)))) shapeCasts_S4096_S4096x1⟩,
      ⟨S4096x1, shapeCast S4096x1 (mulf (mulf (broadcast S4096 (FloatOps.ofBits (F := Ideal) .f32 0x3FB8FFC7#32)) (k0_pay5 (F := Ideal) d)) (subf (k0_pay6 (F := Ideal) d) (k0_pay7 (F := Ideal) d))) shapeCasts_S4096_S4096x1⟩,
      ⟨S4096x1, shapeCast S4096x1 (mulf (mulf (broadcast S4096 (FloatOps.ofBits (F := Ideal) .f32 0x3F170D19#32)) (k0_pay3 (F := Ideal) d)) (subf (k0_pay6 (F := Ideal) d) (mulf (broadcast S4096 (FloatOps.ofBits (F := Ideal) .f32 0x40400000#32)) (k0_pay7 (F := Ideal) d)))) shapeCasts_S4096_S4096x1⟩]
      concatenates_S4096x1_S4096x1_S4096x1_S4096x1_S4096x1_S4096x1_S4096x1_S4096x1_S4096x1_S4096x1_S4096x1_S4096x1_S4096x1_S4096x1_S4096x1_S4096x1_S4096x16_d1 = encOf d := by
  funext i
  obtain ⟨p, q, rfl⟩ : ∃ (p : Fin 4096) (q : Fin 16), i = ix2 p q := ⟨i 0, i 1, eq_ix2 i⟩
  rw [Cert.Concat.concatenate_cols16_apply]
  show _ = sh (d (ix2 p (0 : Fin 3))) (d (ix2 p (1 : Fin 3))) (d (ix2 p (2 : Fin 3))) q
  match q with
  | ⟨0, _⟩ => exact (Cert.Columns.shapeCast_a_a1_apply (k0_pay9 (F := Ideal)) shapeCasts_S4096_S4096x1 p 0).trans (harm_0 d p)
  | ⟨1, _⟩ => exact (Cert.Columns.shapeCast_a_a1_apply (k0_pay10 (F := Ideal) d) shapeCasts_S4096_S4096x1 p 0).trans (harm_1 d p)
  | ⟨2, _⟩ => exact (Cert.Columns.shapeCast_a_a1_apply (k0_pay11 (F := Ideal) d) shapeCasts_S4096_S4096x1 p 0).trans (harm_2 d p)
  | ⟨3, _⟩ => exact (Cert.Columns.shapeCast_a_a1_apply (k0_pay12 (F := Ideal) d) shapeCasts_S4096_S4096x1 p 0).trans (harm_3 d p)
  | ⟨4, _⟩ => exact (Cert.Columns.shapeCast_a_a1_apply (k0_pay14 (F := Ideal) (k0_pay3 (F := Ideal) d) (k0_pay4 (F := Ideal) d) (k0_pay13 (F := Ideal))) shapeCasts_S4096_S4096x1 p 0).trans (harm_4 d p)
  | ⟨5, _⟩ => exact (Cert.Columns.shapeCast_a_a1_apply (k0_pay15 (F := Ideal) (k0_pay4 (F := Ideal) d) (k0_pay5 (F := Ideal) d)) shapeCasts_S4096_S4096x1 p 0).trans (harm_5 d p)
  | ⟨6, _⟩ => exact (Cert.Columns.shapeCast_a_a1_apply (k0_pay16 (F := Ideal) (k0_pay8 (F := Ideal) d)) shapeCasts_S4096_S4096x1 p 0).trans (harm_6 d p)
  | ⟨7, _⟩ => exact (Cert.Columns.shapeCast_a_a1_apply (k0_pay17 (F := Ideal) (k0_pay3 (F := Ideal) d) (k0_pay5 (F := Ideal) d)) shapeCasts_S4096_S4096x1 p 0).trans (harm_7 d p)
  | ⟨8, _⟩ => exact (Cert.Columns.shapeCast_a_a1_apply (k0_pay18 (F := Ideal) (k0_pay6 (F := Ideal) d) (k0_pay7 (F := Ideal) d)) shapeCasts_S4096_S4096x1 p 0).trans (harm_8 d p)
  | ⟨9, _⟩ => exact (Cert.Columns.shapeCast_a_a1_apply (k0_pay19 (F := Ideal) (k0_pay4 (F := Ideal) d) (k0_pay6 (F := Ideal) d) (k0_pay7 (F := Ideal) d)) shapeCasts_S4096_S4096x1 p 0).trans (harm_9 d p)
  | ⟨10, _⟩ => exact (Cert.Columns.shapeCast_a_a1_apply (k0_pay20 (F := Ideal) (k0_pay3 (F := Ideal) d) (k0_pay4 (F := Ideal) d) (k0_pay5 (F := Ideal) d)) shapeCasts_S4096_S4096x1 p 0).trans (harm_10 d p)
  | ⟨11, _⟩ => exact (Cert.Columns.shapeCast_a_a1_apply (k0_pay21 (F := Ideal) (k0_pay4 (F := Ideal) d) (k0_pay8 (F := Ideal) d)) shapeCasts_S4096_S4096x1 p 0).trans (harm_11 d p)
  | ⟨12, _⟩ => exact (Cert.Columns.shapeCast_a_a1_apply (k0_pay22 (F := Ideal) (k0_pay5 (F := Ideal) d) (k0_pay8 (F := Ideal) d)) shapeCasts_S4096_S4096x1 p 0).trans (harm_12 d p)
  | ⟨13, _⟩ => exact (Cert.Columns.shapeCast_a_a1_apply (mulf (k0_pay23 (F := Ideal) (k0_pay3 (F := Ideal) d)) (subf (k0_pay24 (F := Ideal) (k0_pay8 (F := Ideal) d)) (broadcast S4096 (FloatOps.ofBits (F := Ideal) .f32 0x3F800000#32)))) shapeCasts_S4096_S4096x1 p 0).trans (harm_13 d p)
  | ⟨14, _⟩ => exact (Cert.Columns.shapeCast_a_a1_apply (mulf (mulf (broadcast S4096 (FloatOps.ofBits (F := Ideal) .f32 0x3FB8FFC7#32)) (k0_pay5 (F := Ideal) d)) (subf (k0_pay6 (F := Ideal) d) (k0_pay7 (F := Ideal) d))) shapeCasts_S4096_S4096x1 p 0).trans (harm_14 d p)
  | ⟨15, _⟩ => exact (Cert.Columns.shapeCast_a_a1_apply (mulf (mulf (broadcast S4096 (FloatOps.ofBits (F := Ideal) .f32 0x3F170D19#32)) (k0_pay3 (F := Ideal) d)) (subf (k0_pay6 (F := Ideal) d) (mulf (broadcast S4096 (FloatOps.ofBits (F := Ideal) .f32 0x40400000#32)) (k0_pay7 (F := Ideal) d)))) shapeCasts_S4096_S4096x1 p 0).trans (harm_15 d p)
  | ⟨n + 16, hn⟩ => exact absurd hn (by omega)

/-- Two 16-column blocks joined along the columns are the specification's side-by-side block. -/
theorem cat_block (A B : Mat 4096 16) :
    concatenate S4096x32 1 [⟨S4096x16, A⟩, ⟨S4096x16, B⟩] concatenates_S4096x16_S4096x16_S4096x32_d1 = catOf A B := by
  funext i
  rw [Cert.Concat.concatenate_pair16_apply]
  rfl

/-- The larger of a block and the zero word repeated over it, as a whole block. -/
theorem relu_blk {R C : ℕ} (X : Mat R C) :
    maximumf (F := Ideal) (φ := .f32) X (broadcast (⟨2, ![R, C]⟩ : Shape) (FloatOps.ofBits (F := Ideal) .f32 0x00000000#32)) = reluOf X := rfl

/-! ## The two stored blocks -/

theorem hz2 : (![0, 0] : Fin 2 → Nat) = fun _ => 0 := funext fun a => by fin_cases a <;> rfl
theorem hz1 : (![0] : Fin 1 → Nat) = fun _ => 0 := funext fun a => by fin_cases a; rfl

/-- The density block: two dense layers with a rectifier between them, of the position block and the first four
    weight arrays. -/
theorem density_block (x0 : FVec Ideal S4096x32 .f32) (x2 : FVec Ideal S32x64 .f32) (x3 : FVec Ideal S64 .f32)
    (x4 : FVec Ideal S64x16 .f32) (x5 : FVec Ideal S16 .f32) :
    k0_pay2 (F := Ideal) x0 x2 x3 x4 x5 = densityOf x0 x2 x3 x4 x5 := by
  unfold k0_pay2 densityOf
  dsimp only
  rw [layer_32_64, relu_blk, layer_64_16]

/-- What the body leaves in the density window's buffer is the specification's density of the loaded blocks. -/
theorem out12_eq (x0 : Vec Ideal S4096x32 .f32) (x1 : Vec Ideal S4096x3 .f32) (x2 : Vec Ideal S32x64 .f32) (x3 : Vec Ideal S64 .f32) (x4 : Vec Ideal S64x16 .f32) (x5 : Vec Ideal S16 .f32) (x6 : Vec Ideal S32x64 .f32) (x7 : Vec Ideal S64 .f32) (x8 : Vec Ideal S64x64 .f32) (x9 : Vec Ideal S64 .f32) (x10 : Vec Ideal S64x3 .f32) (x11 : Vec Ideal S3 .f32) :
    out0_12 x0 x1 x2 x3 x4 x5 x6 x7 x8 x9 x10 x11 = densityOf x0 x2 x3 x4 x5 := by
  unfold out0_12
  rw [View.canon_unit_zero hz2]
  simp only [View.ld_unit_zero (S := S4096x32) hz2, View.ld_unit_zero (S := S4096x3) hz2, View.ld_unit_zero (S := S32x64) hz2, View.ld_unit_zero (S := S64x16) hz2, View.ld_unit_zero (S := S64x64) hz2, View.ld_unit_zero (S := S64x3) hz2, View.ld_unit_zero (S := S64) hz1, View.ld_unit_zero (S := S16) hz1, View.ld_unit_zero (S := S3) hz1]
  exact density_block x0 x2 x3 x4 x5

/-- What the body leaves in the colour window's buffer is the specification's colour of the loaded blocks: the density
    block and the harmonics side by side, three dense layers, the logistic function. -/
theorem out13_eq (x0 : Vec Ideal S4096x32 .f32) (x1 : Vec Ideal S4096x3 .f32) (x2 : Vec Ideal S32x64 .f32) (x3 : Vec Ideal S64 .f32) (x4 : Vec Ideal S64x16 .f32) (x5 : Vec Ideal S16 .f32) (x6 : Vec Ideal S32x64 .f32) (x7 : Vec Ideal S64 .f32) (x8 : Vec Ideal S64x64 .f32) (x9 : Vec Ideal S64 .f32) (x10 : Vec Ideal S64x3 .f32) (x11 : Vec Ideal S3 .f32) :
    out0_13 x0 x1 x2 x3 x4 x5 x6 x7 x8 x9 x10 x11 = colorOf x0 x1 x2 x3 x4 x5 x6 x7 x8 x9 x10 x11 := by
  unfold out0_13
  rw [View.canon_unit_zero hz2]
  simp only [View.ld_unit_zero (S := S4096x32) hz2, View.ld_unit_zero (S := S4096x3) hz2, View.ld_unit_zero (S := S32x64) hz2, View.ld_unit_zero (S := S64x16) hz2, View.ld_unit_zero (S := S64x64) hz2, View.ld_unit_zero (S := S64x3) hz2, View.ld_unit_zero (S := S64) hz1, View.ld_unit_zero (S := S16) hz1, View.ld_unit_zero (S := S3) hz1]
  unfold k0_pay1 k0_pay25 k0_pay26
  dsimp only
  rw [density_block, enc_block, cat_block, layer_32_64, relu_blk, layer_64_64, relu_blk, layer_64_3]
  rfl

end Cert.KernelIdeal.Body

end
-- ==== Proof.KernelArray.lean ====
/-
  From blocks to the arrays, on the kernel's side.

  The kernel visits 256 grid points. At point t it is handed rows 4096·t … 4096·t + 4095 of the position and the
  direction arrays and the ten weight and bias arrays whole, and it writes rows 4096·t … 4096·t + 4095 of the two
  output arrays. Given what one visit computes from the blocks it is handed (the density features and the colours
  of its 4096 rows: the two hypotheses below), this file shows what the two output ARRAYS hold after all 256 visits:
  the density features and the colours of all 1048576 rows. Three facts join the two: the weight windows are the
  weight arrays; a block of rows put through the network gives those rows of the whole result, since rows do not
  interact; and the 256 output blocks tile the output arrays.
-/
import proofs.«120825_j76673756168435_1_alg».proof.Proof.Gen.KernelIdeal.Value
import proofs.«120825_j76673756168435_1_alg».proof.Proof.Spec
import Idealize.ShloMosaic.Lib.Pipeline.Value
import Idealize.ShloMosaic.Lib.ValueIdx

set_option maxRecDepth 16384

noncomputable section

namespace Cert.KernelIdeal.ArrValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Where each window sits at a grid point

The grid has 256 points. At point t the position window, the direction window and the two output windows hold
rows 4096·t … 4096·t + 4095 of their arrays (block index (t, 0)); the ten weight and bias windows hold their whole
arrays (block index 0 on every axis). Both families of facts are decided once over the 256 points. -/

theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

theorem idx_whole : ∀ t : Fin cfg0.N,
    win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0 :=
  (by decide +kernel : ∀ t : Fin grid0.N, _)

/-! ## The weights and biases: the block is the whole array

A block's coordinate on an axis is  (block index) × (block size) + 1 × (coordinate inside the block); with block
index 0 it is the coordinate itself, so reading the block reads the array. -/

theorem whole2 (c : Dev nD) (t : Fin cfg0.N) : iblk m c 2 t = V m c main_arg2 := by
  funext y
  show V m c main_arg2 (((cfg0.win 2).blk t).view.emb y) = V m c main_arg2 y
  obtain ⟨e0, e1, -⟩ := idx_whole t
  refine congrArg _ (funext fun a => Fin.ext ?_)
  match a with
  | ⟨0, _⟩ => show win0_2.index t (0 : Fin 2) * 32 + 1 * (y 0).val = (y 0).val; omega
  | ⟨1, _⟩ => show win0_2.index t (1 : Fin 2) * 64 + 1 * (y 1).val = (y 1).val; omega

theorem whole3 (c : Dev nD) (t : Fin cfg0.N) : iblk m c 3 t = V m c main_arg3 := by
  funext y
  show V m c main_arg3 (((cfg0.win 3).blk t).view.emb y) = V m c main_arg3 y
  obtain ⟨-, -, e0, -⟩ := idx_whole t
  refine congrArg _ (funext fun a => Fin.ext ?_)
  match a with
  | ⟨0, _⟩ => show win0_3.index t (0 : Fin 1) * 64 + 1 * (y 0).val = (y 0).val; omega

theorem whole4 (c : Dev nD) (t : Fin cfg0.N) : iblk m c 4 t = V m c main_arg4 := by
  funext y
  show V m c main_arg4 (((cfg0.win 4).blk t).view.emb y) = V m c main_arg4 y
  obtain ⟨-, -, -, e0, e1, -⟩ := idx_whole t
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 16 + 1 * (y 1).val = (y 1).val; omega

theorem whole5 (c : Dev nD) (t : Fin cfg0.N) : iblk m c 5 t = V m c main_arg5 := by
  funext y
  show V m c main_arg5 (((cfg0.win 5).blk t).view.emb y) = V m c main_arg5 y
  obtain ⟨-, -, -, -, -, e0, -⟩ := idx_whole t
  refine congrArg _ (funext fun a => Fin.ext ?_)
  match a with
  | ⟨0, _⟩ => show win0_5.index t (0 : Fin 1) * 16 + 1 * (y 0).val = (y 0).val; omega

theorem whole6 (c : Dev nD) (t : Fin cfg0.N) : iblk m c 6 t = V m c main_arg6 := by
  funext y
  show V m c main_arg6 (((cfg0.win 6).blk t).view.emb y) = V m c main_arg6 y
  obtain ⟨-, -, -, -, -, -, e0, e1, -⟩ := idx_whole t
  refine congrArg _ (funext fun a => Fin.ext ?_)
  match a with
  | ⟨0, _⟩ => show win0_6.index t (0 : Fin 2) * 32 + 1 * (y 0).val = (y 0).val; omega
  | ⟨1, _⟩ => show win0_6.index t (1 : Fin 2) * 64 + 1 * (y 1).val = (y 1).val; omega

theorem whole7 (c : Dev nD) (t : Fin cfg0.N) : iblk m c 7 t = V m c main_arg7 := by
  funext y
  show V m c main_arg7 (((cfg0.win 7).blk t).view.emb y) = V m c main_arg7 y
  obtain ⟨-, -, -, -, -, -, -, -, e0, -⟩ := idx_whole t
  refine congrArg _ (funext fun a => Fin.ext ?_)
  match a with
  | ⟨0, _⟩ => show win0_7.index t (0 : Fin 1) * 64 + 1 * (y 0).val = (y 0).val; omega

theorem whole8 (c : Dev nD) (t : Fin cfg0.N) : iblk m c 8 t = V m c main_arg8 := by
  funext y
  show V m c main_arg8 (((cfg0.win 8).blk t).view.emb y) = V m c main_arg8 y
  obtain ⟨-, -, -, -, -, -, -, -, -, e0, e1, -⟩ := idx_whole t
  refine congrArg _ (funext fun a => Fin.ext ?_)
  match a with
  | ⟨0, _⟩ => show win0_8.index t (0 : Fin 2) * 64 + 1 * (y 0).val = (y 0).val; omega
  | ⟨1, _⟩ => show win0_8.index t (1 : Fin 2) * 64 + 1 * (y 1).val = (y 1).val; omega

theorem whole9 (c : Dev nD) (t : Fin cfg0.N) : iblk m c 9 t = V m c main_arg9 := by
  funext y
  show V m c main_arg9 (((cfg0.win 9).blk t).view.emb y) = V m c main_arg9 y
  obtain ⟨-, -, -, -, -, -, -, -, -, -, -, e0, -⟩ := idx_whole t
  refine congrArg _ (funext fun a => Fin.ext ?_)
  match a with
  | ⟨0, _⟩ => show win0_9.index t (0 : Fin 1) * 64 + 1 * (y 0).val = (y 0).val; omega

theorem whole10 (c : Dev nD) (t : Fin cfg0.N) : iblk m c 10 t = V m c main_arg10 := by
  funext y
  show V m c main_arg10 (((cfg0.win 10).blk t).view.emb y) = V m c main_arg10 y
  obtain ⟨-, -, -, -, -, -, -, -, -, -, -, -, e0, e1, -⟩ := idx_whole t
  refine congrArg _ (funext fun a => Fin.ext ?_)
  match a with
  | ⟨0, _⟩ => show win0_10.index t (0 : Fin 2) * 64 + 1 * (y 0).val = (y 0).val; omega
  | ⟨1, _⟩ => show win0_10.index t (1 : Fin 2) * 3 + 1 * (y 1).val = (y 1).val; omega

theorem whole11 (c : Dev nD) (t : Fin cfg0.N) : iblk m c 11 t = V m c main_arg11 := by
  funext y
  show V m c main_arg11 (((cfg0.win 11).blk t).view.emb y) = V m c main_arg11 y
  obtain ⟨-, -, -, -, -, -, -, -, -, -, -, -, -, -, e0⟩ := idx_whole t
  refine congrArg _ (funext fun a => Fin.ext ?_)
  match a with
  | ⟨0, _⟩ => show win0_11.index t (0 : Fin 1) * 3 + 1 * (y 0).val = (y 0).val; omega

/-! ## The positions and directions: the block is 4096 consecutive rows -/

/-- Row p of point t's block is row 4096·t + p of the array. -/
def rowOf (t : Fin cfg0.N) (p : Fin 4096) : Fin 1048576 :=
  ⟨t.val * 4096 + p.val, by
    have ht : t.val < 256 := lt_of_lt_of_eq t.isLt N_0
    have hp : p.val < 4096 := p.isLt
    omega⟩

theorem rowOf_val (t : Fin cfg0.N) (p : Fin 4096) : (rowOf t p).val = t.val * 4096 + p.val := rfl

/-- Point t's block of positions holds, at row p, row 4096·t + p of the position array. -/
theorem rows0 (c : Dev nD) (t : Fin cfg0.N) : Cert.Mlp.Sub (rowOf t) (iblk m c 0 t) (V m c main_arg0) := fun p k => by
  show V m c main_arg0 (((cfg0.win 0).blk t).view.emb (ix2 p k)) = V m c main_arg0 (ix2 (rowOf t p) k)
  obtain ⟨e0, e1, -⟩ := idx_rows t
  refine congrArg _ (funext fun a => Fin.ext ?_)
  match a with
  | ⟨0, _⟩ => show win0_0.index t (0 : Fin 2) * 4096 + 1 * p.val = t.val * 4096 + p.val; omega
  | ⟨1, _⟩ => show win0_0.index t (1 : Fin 2) * 32 + 1 * k.val = k.val; omega

/-- Point t's block of directions holds, at row p, row 4096·t + p of the direction array. -/
theorem rows1 (c : Dev nD) (t : Fin cfg0.N) : Cert.Mlp.Sub (rowOf t) (iblk m c 1 t) (V m c main_arg1) := fun p k => by
  show V m c main_arg1 (((cfg0.win 1).blk t).view.emb (ix2 p k)) = V m c main_arg1 (ix2 (rowOf t p) k)
  obtain ⟨-, -, e0, e1, -⟩ := idx_rows t
  refine congrArg _ (funext fun a => Fin.ext ?_)
  match a with
  | ⟨0, _⟩ => show win0_1.index t (0 : Fin 2) * 4096 + 1 * p.val = t.val * 4096 + p.val; omega
  | ⟨1, _⟩ => show win0_1.index t (1 : Fin 2) * 3 + 1 * k.val = k.val; omega

/-! ## What a point writes back is its rows of the whole result

The network acts row by row, so the density features (the colours) of the 4096 rows of point t's block are rows
4096·t … 4096·t + 4095 of the density features (the colours) of the whole arrays; and entry (p, j) of the output
block sits at entry (4096·t + p, j) of the output array. -/

theorem flushed12_eq (hpay12 : ∀ (x0 : Vec Ideal S4096x32 .f32) (x1 : Vec Ideal S4096x3 .f32) (x2 : Vec Ideal S32x64 .f32) (x3 : Vec Ideal S64 .f32) (x4 : Vec Ideal S64x16 .f32) (x5 : Vec Ideal S16 .f32) (x6 : Vec Ideal S32x64 .f32) (x7 : Vec Ideal S64 .f32) (x8 : Vec Ideal S64x64 .f32) (x9 : Vec Ideal S64 .f32) (x10 : Vec Ideal S64x3 .f32) (x11 : Vec Ideal S3 .f32), out0_12 x0 x1 x2 x3 x4 x5 x6 x7 x8 x9 x10 x11 = Cert.Mlp.densityOf x0 x2 x3 x4 x5)
    (c : Dev nD) (t : Fin cfg0.N) :
    (dats m 0 c).flushed 12 t = ((cfg0.win 12).blk t).view.read (Elt Ideal) (Cert.Mlp.densityOf (V m c main_arg0) (V m c main_arg2) (V m c main_arg3) (V m c main_arg4) (V m c main_arg5)) := by
  refine (Value.flushed12 m c t).trans ?_
  rw [hpay12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)]
  rw [whole2 m c t, whole3 m c t, whole4 m c t, whole5 m c t]
  funext y
  show Cert.Mlp.densityOf (iblk m c 0 t) (V m c main_arg2) (V m c main_arg3) (V m c main_arg4) (V m c main_arg5) y
    = (Cert.Mlp.densityOf (V m c main_arg0) (V m c main_arg2) (V m c main_arg3) (V m c main_arg4) (V m c main_arg5)) (((cfg0.win 12).blk t).view.emb y)
  obtain ⟨-, -, -, -, e0, e1, -⟩ := idx_rows t
  refine ((rows0 m c t).density _ _ _ _).at y _ (Fin.ext ?_) (Fin.ext ?_)
  · show win0_12.index t (0 : Fin 2) * 4096 + 1 * (y 0).val = t.val * 4096 + (y 0).val; omega
  · show win0_12.index t (1 : Fin 2) * 16 + 1 * (y 1).val = (y 1).val; omega

theorem flushed13_eq (hpay13 : ∀ (x0 : Vec Ideal S4096x32 .f32) (x1 : Vec Ideal S4096x3 .f32) (x2 : Vec Ideal S32x64 .f32) (x3 : Vec Ideal S64 .f32) (x4 : Vec Ideal S64x16 .f32) (x5 : Vec Ideal S16 .f32) (x6 : Vec Ideal S32x64 .f32) (x7 : Vec Ideal S64 .f32) (x8 : Vec Ideal S64x64 .f32) (x9 : Vec Ideal S64 .f32) (x10 : Vec Ideal S64x3 .f32) (x11 : Vec Ideal S3 .f32), out0_13 x0 x1 x2 x3 x4 x5 x6 x7 x8 x9 x10 x11 = Cert.Mlp.colorOf x0 x1 x2 x3 x4 x5 x6 x7 x8 x9 x10 x11)
    (c : Dev nD) (t : Fin cfg0.N) :
    (dats m 0 c).flushed 13 t = ((cfg0.win 13).blk t).view.read (Elt Ideal) (Cert.Mlp.colorOf (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  refine (Value.flushed13 m c t).trans ?_
  rw [hpay13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)]
  rw [whole2 m c t, whole3 m c t, whole4 m c t, whole5 m c t, whole6 m c t, whole7 m c t, whole8 m c t, whole9 m c t,
    whole10 m c t, whole11 m c t]
  funext y
  show Cert.Mlp.colorOf (iblk m c 0 t) (iblk m c 1 t) (V m c main_arg2) (V m c main_arg3) (V m c main_arg4) (V m c main_arg5) (V m c main_arg6) (V m c main_arg7) (V m c main_arg8) (V m c main_arg9) (V m c main_arg10) (V m c main_arg11) y
    = (Cert.Mlp.colorOf (V m c main_arg0) (V m c main_arg1) (V m c main_arg2) (V m c main_arg3) (V m c main_arg4) (V m c main_arg5) (V m c main_arg6) (V m c main_arg7) (V m c main_arg8) (V m c main_arg9) (V m c main_arg10) (V m c main_arg11)) (((cfg0.win 13).blk t).view.emb y)
  obtain ⟨-, -, -, -, -, -, e0, e1⟩ := idx_rows t
  refine ((rows0 m c t).color (rows1 m c t) _ _ _ _ _ _ _ _ _ _).at y _ (Fin.ext ?_) (Fin.ext ?_)
  · show win0_13.index t (0 : Fin 2) * 4096 + 1 * (y 0).val = t.val * 4096 + (y 0).val; omega
  · show win0_13.index t (1 : Fin 2) * 3 + 1 * (y 1).val = (y 1).val; omega

/-! ## The output blocks tile the output arrays

Row r of an output array lies in the block of point r / 4096: 4096·(r / 4096) ≤ r < 4096·(r / 4096) + 4096, and
the block spans every column. -/

theorem mem_blk12 (t : Fin cfg0.N) (i : S1048576x16.Idx) :
    i ∈ ((cfg0.win 12).blk t).view.set ↔ ∀ a : Fin 2, win0_12.index t a * S4096x16.size a ≤ (i a).val ∧ (i a).val < win0_12.index t a * S4096x16.size a + S4096x16.size a := by
  show i ∈ ((View.whole main_v0_0).slice (win0_12.rect t)).set ↔ _
  rw [View.set_slice_whole, Rect.mem_set_unit]
  exact Iff.rfl

theorem mem_blk13 (t : Fin cfg0.N) (i : S1048576x3.Idx) :
    i ∈ ((cfg0.win 13).blk t).view.set ↔ ∀ a : Fin 2, win0_13.index t a * S4096x3.size a ≤ (i a).val ∧ (i a).val < win0_13.index t a * S4096x3.size a + S4096x3.size a := by
  show i ∈ ((View.whole main_v0_1).slice (win0_13.rect t)).set ↔ _
  rw [View.set_slice_whole, Rect.mem_set_unit]
  exact Iff.rfl

theorem cover12 (i : S1048576x16.Idx) :
    ∃ t : Fin cfg0.N, (cfg0.win 12).flush t = true ∧ i ∈ ((cfg0.win 12).blk t).view.set := by
  have hi0 : (i 0).val < 1048576 := (i 0).isLt
  have hi1 : (i 1).val < 16 := (i 1).isLt
  have hN : cfg0.N = 256 := N_0
  let t : Fin cfg0.N := ⟨(i 0).val / 4096, by rw [hN]; omega⟩
  have htv : t.val = (i 0).val / 4096 := rfl
  obtain ⟨-, -, -, -, e0, e1, -⟩ := idx_rows t
  refine ⟨t, flush0_12 t, ?_⟩
  rw [mem_blk12]
  intro a
  match a with
  | ⟨0, _⟩ => show win0_12.index t (0 : Fin 2) * 4096 ≤ (i 0).val ∧ (i 0).val < win0_12.index t (0 : Fin 2) * 4096 + 4096; omega
  | ⟨1, _⟩ => show win0_12.index t (1 : Fin 2) * 16 ≤ (i 1).val ∧ (i 1).val < win0_12.index t (1 : Fin 2) * 16 + 16; omega

theorem cover13 (i : S1048576x3.Idx) :
    ∃ t : Fin cfg0.N, (cfg0.win 13).flush t = true ∧ i ∈ ((cfg0.win 13).blk t).view.set := by
  have hi0 : (i 0).val < 1048576 := (i 0).isLt
  have hi1 : (i 1).val < 3 := (i 1).isLt
  have hN : cfg0.N = 256 := N_0
  let t : Fin cfg0.N := ⟨(i 0).val / 4096, by rw [hN]; omega⟩
  have htv : t.val = (i 0).val / 4096 := rfl
  obtain ⟨-, -, -, -, -, -, e0, e1⟩ := idx_rows t
  refine ⟨t, flush0_13 t, ?_⟩
  rw [mem_blk13]
  intro a
  match a with
  | ⟨0, _⟩ => show win0_13.index t (0 : Fin 2) * 4096 ≤ (i 0).val ∧ (i 0).val < win0_13.index t (0 : Fin 2) * 4096 + 4096; omega
  | ⟨1, _⟩ => show win0_13.index t (1 : Fin 2) * 3 ≤ (i 1).val ∧ (i 1).val < win0_13.index t (1 : Fin 2) * 3 + 3; omega

/-! ## The output arrays after the run

Every point writes its rows of the whole result and the blocks tile the arrays, so each output array ends holding
the whole result: the density features of all 1048576 positions, and the colours of all positions and directions. -/

theorem final12 (hpay12 : ∀ (x0 : Vec Ideal S4096x32 .f32) (x1 : Vec Ideal S4096x3 .f32) (x2 : Vec Ideal S32x64 .f32) (x3 : Vec Ideal S64 .f32) (x4 : Vec Ideal S64x16 .f32) (x5 : Vec Ideal S16 .f32) (x6 : Vec Ideal S32x64 .f32) (x7 : Vec Ideal S64 .f32) (x8 : Vec Ideal S64x64 .f32) (x9 : Vec Ideal S64 .f32) (x10 : Vec Ideal S64x3 .f32) (x11 : Vec Ideal S3 .f32), out0_12 x0 x1 x2 x3 x4 x5 x6 x7 x8 x9 x10 x11 = Cert.Mlp.densityOf x0 x2 x3 x4 x5)
    (c : Dev nD) :
    (dats m 0 c).arrAt 12 cfg0.N = Cert.Mlp.densityOf (m ((c : Thread nD τ).loc main_arg0)) (m ((c : Thread nD τ).loc main_arg2)) (m ((c : Thread nD τ).loc main_arg3)) (m ((c : Thread nD τ).loc main_arg4)) (m ((c : Thread nD τ).loc main_arg5)) :=
  (dats m 0 c).arrAt_eq_of_cover 12 (Cert.Mlp.densityOf (V m c main_arg0) (V m c main_arg2) (V m c main_arg3) (V m c main_arg4) (V m c main_arg5))
    (fun t _ => flushed12_eq m hpay12 c t) cover12

theorem final13 (hpay13 : ∀ (x0 : Vec Ideal S4096x32 .f32) (x1 : Vec Ideal S4096x3 .f32) (x2 : Vec Ideal S32x64 .f32) (x3 : Vec Ideal S64 .f32) (x4 : Vec Ideal S64x16 .f32) (x5 : Vec Ideal S16 .f32) (x6 : Vec Ideal S32x64 .f32) (x7 : Vec Ideal S64 .f32) (x8 : Vec Ideal S64x64 .f32) (x9 : Vec Ideal S64 .f32) (x10 : Vec Ideal S64x3 .f32) (x11 : Vec Ideal S3 .f32), out0_13 x0 x1 x2 x3 x4 x5 x6 x7 x8 x9 x10 x11 = Cert.Mlp.colorOf x0 x1 x2 x3 x4 x5 x6 x7 x8 x9 x10 x11)
    (c : Dev nD) :
    (dats m 0 c).arrAt 13 cfg0.N = Cert.Mlp.colorOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (dats m 0 c).arrAt_eq_of_cover 13 (Cert.Mlp.colorOf (V m c main_arg0) (V m c main_arg1) (V m c main_arg2) (V m c main_arg3) (V m c main_arg4) (V m c main_arg5) (V m c main_arg6) (V m c main_arg7) (V m c main_arg8) (V m c main_arg9) (V m c main_arg10) (V m c main_arg11))
    (fun t _ => flushed13_eq m hpay13 c t) cover13

/-- The run: afterwards the first output array holds the density features and the second the colours of the whole
    input arrays, and the twelve argument arrays are as they were. -/
theorem run (hpay12 : ∀ (x0 : Vec Ideal S4096x32 .f32) (x1 : Vec Ideal S4096x3 .f32) (x2 : Vec Ideal S32x64 .f32) (x3 : Vec Ideal S64 .f32) (x4 : Vec Ideal S64x16 .f32) (x5 : Vec Ideal S16 .f32) (x6 : Vec Ideal S32x64 .f32) (x7 : Vec Ideal S64 .f32) (x8 : Vec Ideal S64x64 .f32) (x9 : Vec Ideal S64 .f32) (x10 : Vec Ideal S64x3 .f32) (x11 : Vec Ideal S3 .f32), out0_12 x0 x1 x2 x3 x4 x5 x6 x7 x8 x9 x10 x11 = Cert.Mlp.densityOf x0 x2 x3 x4 x5)
    (hpay13 : ∀ (x0 : Vec Ideal S4096x32 .f32) (x1 : Vec Ideal S4096x3 .f32) (x2 : Vec Ideal S32x64 .f32) (x3 : Vec Ideal S64 .f32) (x4 : Vec Ideal S64x16 .f32) (x5 : Vec Ideal S16 .f32) (x6 : Vec Ideal S32x64 .f32) (x7 : Vec Ideal S64 .f32) (x8 : Vec Ideal S64x64 .f32) (x9 : Vec Ideal S64 .f32) (x10 : Vec Ideal S64x3 .f32) (x11 : Vec Ideal S3 .f32), out0_13 x0 x1 x2 x3 x4 x5 x6 x7 x8 x9 x10 x11 = Cert.Mlp.colorOf x0 x1 x2 x3 x4 x5 x6 x7 x8 x9 x10 x11) :
    θ_run defs (onTc (τ := τ) (main (F := Ideal))) ⟨m, fun _ => 0, ρ⟩ fun r => ∀ c : Dev nD,
      r.2.mem ((c : Thread nD τ).loc main_v0_0) = Cert.Mlp.densityOf (m ((c : Thread nD τ).loc main_arg0)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = Cert.Mlp.colorOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono
    (fun r h c => ⟨(h c).1.trans (final12 m hpay12 c), (h c).2.1.trans (final13 m hpay13 c), (h c).2.2⟩)
    (Value.run_blocks m ρ)

end Cert.KernelIdeal.ArrValue

end
-- ==== Proof.RefValue.lean ====
/-
  The reference program, read as the network of the specification.

  The program is a straight line of whole-array operations.  Each is read at an index from the stage below it, and the
  stages are joined bottom-up: a product of two matrices followed by the addition of a bias row repeated down the rows is
  a dense layer; a maximum with the zero word spread over the array is the rectifier; sixteen columns, each a polynomial
  in the three coordinates of a row's direction, placed side by side are the harmonics; two 16-column arrays placed side
  by side are the joined features; and  1 / (1 + e^(−c))  spelled with negation, exponential, addition and division is
  the logistic function.  Every step is the definition of the operation at an entry; no law of arithmetic is needed.
-/
import proofs.«120825_j76673756168435_1_alg».proof.Proof.Gen.ReferenceIdeal.Read
import proofs.«120825_j76673756168435_1_alg».proof.Proof.Spec
import proofs.«120825_j76673756168435_1_alg».proof.Proof.LibConcat
import Idealize.ShloMosaic.Lib.ValueIdx
import Idealize.ShloMosaic.Lib.Pipeline.Value
import Idealize.ShloMosaic.PureOps.Ideal
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.Mlp
open scoped BigOperators

/-! ## The density branch -/

/-- The first dense layer: the product's entry (r, j) is the sum over k of position(r,k)·W1(k,j), and the bias row
    is repeated down the rows. -/
theorem v3_eq (x0 : (⟨S1048576x32, .f32⟩ : BufTy).Contents (Elt Ideal)) (x2 : (⟨S32x64, .f32⟩ : BufTy).Contents (Elt Ideal))
    (x3 : (⟨S64, .f32⟩ : BufTy).Contents (Elt Ideal)) :
    val_main_v3 (F := Ideal) x0 x2 x3 = layer (R := 1048576) (K := 32) (J := 64) x0 x2 x3 := by
  funext i
  rw [val_main_v3_apply, val_main_v0_apply, val_main_v2_apply, val_main_v1_apply]
  have el : ∀ k : Fin 32, lidx_main_v0 i k = ix2 (i 0) k := fun k => funext fun a => by
    match a with
    | ⟨0, _⟩ => rfl
    | ⟨1, _⟩ => rfl
  have er : ∀ k : Fin 32, ridx_main_v0 i k = ix2 k (i 1) := fun k => funext fun a => by
    match a with
    | ⟨0, _⟩ => rfl
    | ⟨1, _⟩ => rfl
  have eb : idx_main_v1 (idx_main_v2 i) = ix1 (i 1) := funext fun a => by
    match a with
    | ⟨0, _⟩ => rfl
  simp only [el, er, eb]
  rfl

/-- The rectifier after the first layer: every entry is compared with the zero word. -/
theorem v4_eq (x0 : (⟨S1048576x32, .f32⟩ : BufTy).Contents (Elt Ideal)) (x2 : (⟨S32x64, .f32⟩ : BufTy).Contents (Elt Ideal))
    (x3 : (⟨S64, .f32⟩ : BufTy).Contents (Elt Ideal)) :
    val_main_v4 (F := Ideal) x0 x2 x3 = reluOf (layer (R := 1048576) (K := 32) (J := 64) x0 x2 x3) := by
  funext i
  rw [val_main_v4_apply, v3_eq, val_main_call0_v0_apply, val_main_call0_cst_apply]
  rfl

/-- The second dense layer, over whatever the rectifier produced. -/
theorem v8_layer (x0 : (⟨S1048576x32, .f32⟩ : BufTy).Contents (Elt Ideal)) (x2 : (⟨S32x64, .f32⟩ : BufTy).Contents (Elt Ideal))
    (x3 : (⟨S64, .f32⟩ : BufTy).Contents (Elt Ideal)) (x4 : (⟨S64x16, .f32⟩ : BufTy).Contents (Elt Ideal))
    (x5 : (⟨S16, .f32⟩ : BufTy).Contents (Elt Ideal)) :
    val_main_v8 (F := Ideal) x0 x2 x3 x4 x5
      = layer (R := 1048576) (K := 64) (J := 16) (val_main_v4 (F := Ideal) x0 x2 x3) x4 x5 := by
  funext i
  rw [val_main_v8_apply, val_main_v5_apply, val_main_v7_apply, val_main_v6_apply]
  have el : ∀ k : Fin 64, lidx_main_v5 i k = ix2 (i 0) k := fun k => funext fun a => by
    match a with
    | ⟨0, _⟩ => rfl
    | ⟨1, _⟩ => rfl
  have er : ∀ k : Fin 64, ridx_main_v5 i k = ix2 k (i 1) := fun k => funext fun a => by
    match a with
    | ⟨0, _⟩ => rfl
    | ⟨1, _⟩ => rfl
  have eb : idx_main_v6 (idx_main_v7 i) = ix1 (i 1) := funext fun a => by
    match a with
    | ⟨0, _⟩ => rfl
  simp only [el, er, eb]
  rfl

/-- The density features of the reference program are the specification's. -/
theorem density_eq (x0 : (⟨S1048576x32, .f32⟩ : BufTy).Contents (Elt Ideal)) (x2 : (⟨S32x64, .f32⟩ : BufTy).Contents (Elt Ideal))
    (x3 : (⟨S64, .f32⟩ : BufTy).Contents (Elt Ideal)) (x4 : (⟨S64x16, .f32⟩ : BufTy).Contents (Elt Ideal))
    (x5 : (⟨S16, .f32⟩ : BufTy).Contents (Elt Ideal)) :
    Cert.ReferenceIdeal.Read.val_main_v8 (F := Ideal) x0 x2 x3 x4 x5 = Cert.Mlp.densityOf x0 x2 x3 x4 x5 := by
  rw [v8_layer, v4_eq]
  rfl

/-! ## The harmonics -/

section Harmonics

variable (x1 : (⟨S1048576x3, .f32⟩ : BufTy).Contents (Elt Ideal)) (j : S1048576.Idx)

/-- The first coordinate of every row's direction: column 0, sliced out and flattened to a vector. -/
theorem hx : val_main_v10 (F := Ideal) x1 j = x1 (ix2 (j 0) (0 : Fin 3)) := by
  rw [val_main_v10_apply, val_main_v9_apply]
  refine congrArg x1 (funext fun a => ?_)
  match a with
  | ⟨0, _⟩ => exact Fin.ext (Nat.div_one _)
  | ⟨1, _⟩ => rfl

/-- The second coordinate: column 1. -/
theorem hy : val_main_v12 (F := Ideal) x1 j = x1 (ix2 (j 0) (1 : Fin 3)) := by
  rw [val_main_v12_apply, val_main_v11_apply]
  refine congrArg x1 (funext fun a => ?_)
  match a with
  | ⟨0, _⟩ => exact Fin.ext (Nat.div_one _)
  | ⟨1, _⟩ => rfl

/-- The third coordinate: column 2. -/
theorem hz : val_main_v14 (F := Ideal) x1 j = x1 (ix2 (j 0) (2 : Fin 3)) := by
  rw [val_main_v14_apply, val_main_v13_apply]
  refine congrArg x1 (funext fun a => ?_)
  match a with
  | ⟨0, _⟩ => exact Fin.ext (Nat.div_one _)
  | ⟨1, _⟩ => rfl

/-- The squares x·x, y·y, z·z. -/
theorem hxx : val_main_v15 (F := Ideal) x1 j = x1 (ix2 (j 0) (0 : Fin 3)) * x1 (ix2 (j 0) (0 : Fin 3)) := by
  rw [val_main_v15_apply, hx]; rfl
theorem hyy : val_main_v16 (F := Ideal) x1 j = x1 (ix2 (j 0) (1 : Fin 3)) * x1 (ix2 (j 0) (1 : Fin 3)) := by
  rw [val_main_v16_apply, hy]; rfl
theorem hzz : val_main_v17 (F := Ideal) x1 j = x1 (ix2 (j 0) (2 : Fin 3)) * x1 (ix2 (j 0) (2 : Fin 3)) := by
  rw [val_main_v17_apply, hz]; rfl

/-- Degree 0: the constant. -/
theorem h0 : val_main_v18 (F := Ideal) j = lit 0x3E906EBB#32 := by
  rw [val_main_v18_apply, val_main_cst_apply]; rfl

/-- Degree 1:  c·y,  c·z,  c·x. -/
theorem h1 : val_main_v20 (F := Ideal) x1 j = lit 0x3EFA2A1C#32 * x1 (ix2 (j 0) (1 : Fin 3)) := by
  rw [val_main_v20_apply, val_main_v19_apply, val_main_cst_0_apply, hy]; rfl
theorem h2 : val_main_v22 (F := Ideal) x1 j = lit 0x3EFA2A1C#32 * x1 (ix2 (j 0) (2 : Fin 3)) := by
  rw [val_main_v22_apply, val_main_v21_apply, val_main_cst_1_apply, hz]; rfl
theorem h3 : val_main_v24 (F := Ideal) x1 j = lit 0x3EFA2A1C#32 * x1 (ix2 (j 0) (0 : Fin 3)) := by
  rw [val_main_v24_apply, val_main_v23_apply, val_main_cst_2_apply, hx]; rfl

/-- Degree 2:  c·x·y,  c·y·z,  c·(z·z) − d,  c·x·z,  c·(x·x − y·y). -/
theorem h4 : val_main_v27 (F := Ideal) x1 j
    = lit 0x3F8BD8A1#32 * x1 (ix2 (j 0) (0 : Fin 3)) * x1 (ix2 (j 0) (1 : Fin 3)) := by
  rw [val_main_v27_apply, val_main_v26_apply, val_main_v25_apply, val_main_cst_3_apply, hx, hy]; rfl
theorem h5 : val_main_v30 (F := Ideal) x1 j
    = lit 0x3F8BD8A1#32 * x1 (ix2 (j 0) (1 : Fin 3)) * x1 (ix2 (j 0) (2 : Fin 3)) := by
  rw [val_main_v30_apply, val_main_v29_apply, val_main_v28_apply, val_main_cst_4_apply, hy, hz]; rfl
theorem h6 : val_main_v34 (F := Ideal) x1 j
    = lit 0x3F723881#32 * (x1 (ix2 (j 0) (2 : Fin 3)) * x1 (ix2 (j 0) (2 : Fin 3))) - lit 0x3EA17B01#32 := by
  rw [val_main_v34_apply, val_main_v32_apply, val_main_v31_apply, val_main_cst_5_apply, hzz, val_main_v33_apply,
    val_main_cst_6_apply]; rfl
theorem h7 : val_main_v37 (F := Ideal) x1 j
    = lit 0x3F8BD8A1#32 * x1 (ix2 (j 0) (0 : Fin 3)) * x1 (ix2 (j 0) (2 : Fin 3)) := by
  rw [val_main_v37_apply, val_main_v36_apply, val_main_v35_apply, val_main_cst_7_apply, hx, hz]; rfl
theorem h8 : val_main_v40 (F := Ideal) x1 j
    = lit 0x3F0BD8A1#32 * (x1 (ix2 (j 0) (0 : Fin 3)) * x1 (ix2 (j 0) (0 : Fin 3))
        - x1 (ix2 (j 0) (1 : Fin 3)) * x1 (ix2 (j 0) (1 : Fin 3))) := by
  rw [val_main_v40_apply, val_main_v39_apply, val_main_cst_8_apply, val_main_v38_apply, hxx, hyy]; rfl

/-- Degree 3: each is a product of a degree-1 factor  c·(coordinate)  and a degree-2 factor. -/
theorem h9 : val_main_v46 (F := Ideal) x1 j
    = lit 0x3F170D19#32 * x1 (ix2 (j 0) (1 : Fin 3))
        * (lit 0x40400000#32 * (x1 (ix2 (j 0) (0 : Fin 3)) * x1 (ix2 (j 0) (0 : Fin 3)))
            - x1 (ix2 (j 0) (1 : Fin 3)) * x1 (ix2 (j 0) (1 : Fin 3))) := by
  rw [val_main_v46_apply, val_main_v42_apply, val_main_v41_apply, val_main_cst_9_apply, hy, val_main_v45_apply,
    val_main_v44_apply, val_main_v43_apply, val_main_cst_10_apply, hxx, hyy]; rfl
theorem h10 : val_main_v50 (F := Ideal) x1 j
    = lit 0x4038FFC7#32 * x1 (ix2 (j 0) (0 : Fin 3)) * x1 (ix2 (j 0) (1 : Fin 3)) * x1 (ix2 (j 0) (2 : Fin 3)) := by
  rw [val_main_v50_apply, val_main_v49_apply, val_main_v48_apply, val_main_v47_apply, val_main_cst_11_apply, hx, hy, hz]
  rfl
theorem h11 : val_main_v57 (F := Ideal) x1 j
    = lit 0x3EEA01E8#32 * x1 (ix2 (j 0) (1 : Fin 3))
        * (lit 0x40A00000#32 * (x1 (ix2 (j 0) (2 : Fin 3)) * x1 (ix2 (j 0) (2 : Fin 3))) - lit 0x3F800000#32) := by
  rw [val_main_v57_apply, val_main_v52_apply, val_main_v51_apply, val_main_cst_12_apply, hy, val_main_v56_apply,
    val_main_v54_apply, val_main_v53_apply, val_main_cst_13_apply, hzz, val_main_v55_apply, val_main_cst_14_apply]; rfl
theorem h12 : val_main_v64 (F := Ideal) x1 j
    = lit 0x3EBF10F8#32 * x1 (ix2 (j 0) (2 : Fin 3))
        * (lit 0x40A00000#32 * (x1 (ix2 (j 0) (2 : Fin 3)) * x1 (ix2 (j 0) (2 : Fin 3))) - lit 0x40400000#32) := by
  rw [val_main_v64_apply, val_main_v59_apply, val_main_v58_apply, val_main_cst_15_apply, hz, val_main_v63_apply,
    val_main_v61_apply, val_main_v60_apply, val_main_cst_16_apply, hzz, val_main_v62_apply, val_main_cst_17_apply]; rfl
theorem h13 : val_main_v71 (F := Ideal) x1 j
    = lit 0x3EEA01E8#32 * x1 (ix2 (j 0) (0 : Fin 3))
        * (lit 0x40A00000#32 * (x1 (ix2 (j 0) (2 : Fin 3)) * x1 (ix2 (j 0) (2 : Fin 3))) - lit 0x3F800000#32) := by
  rw [val_main_v71_apply, val_main_v66_apply, val_main_v65_apply, val_main_cst_18_apply, hx, val_main_v70_apply,
    val_main_v68_apply, val_main_v67_apply, val_main_cst_19_apply, hzz, val_main_v69_apply, val_main_cst_20_apply]; rfl
theorem h14 : val_main_v75 (F := Ideal) x1 j
    = lit 0x3FB8FFC7#32 * x1 (ix2 (j 0) (2 : Fin 3))
        * (x1 (ix2 (j 0) (0 : Fin 3)) * x1 (ix2 (j 0) (0 : Fin 3))
            - x1 (ix2 (j 0) (1 : Fin 3)) * x1 (ix2 (j 0) (1 : Fin 3))) := by
  rw [val_main_v75_apply, val_main_v73_apply, val_main_v72_apply, val_main_cst_21_apply, hz, val_main_v74_apply, hxx,
    hyy]; rfl
theorem h15 : val_main_v81 (F := Ideal) x1 j
    = lit 0x3F170D19#32 * x1 (ix2 (j 0) (0 : Fin 3))
        * (x1 (ix2 (j 0) (0 : Fin 3)) * x1 (ix2 (j 0) (0 : Fin 3))
            - lit 0x40400000#32 * (x1 (ix2 (j 0) (1 : Fin 3)) * x1 (ix2 (j 0) (1 : Fin 3)))) := by
  rw [val_main_v81_apply, val_main_v77_apply, val_main_v76_apply, val_main_cst_22_apply, hx, val_main_v80_apply, hxx,
    val_main_v79_apply, val_main_v78_apply, val_main_cst_23_apply, hyy]; rfl

end Harmonics

/-! ## The colour branch: three more dense layers, each over the stage below it -/

section Colour

variable (x0 : (⟨S1048576x32, .f32⟩ : BufTy).Contents (Elt Ideal)) (x1 : (⟨S1048576x3, .f32⟩ : BufTy).Contents (Elt Ideal))
    (x2 : (⟨S32x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal))
    (x6 : (⟨S32x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x3, .f32⟩ : BufTy).Contents (Elt Ideal)) (x11 : (⟨S3, .f32⟩ : BufTy).Contents (Elt Ideal))

/-- The third dense layer, over the 32 joined features. -/
theorem v103_layer : val_main_v103 (F := Ideal) x0 x1 x2 x3 x4 x5 x6 x7
    = layer (R := 1048576) (K := 32) (J := 64) (val_main_v99 (F := Ideal) x0 x1 x2 x3 x4 x5) x6 x7 := by
  funext i
  rw [val_main_v103_apply, val_main_v100_apply, val_main_v102_apply, val_main_v101_apply]
  have el : ∀ k : Fin 32, lidx_main_v100 i k = ix2 (i 0) k := fun k => funext fun a => by
    match a with
    | ⟨0, _⟩ => rfl
    | ⟨1, _⟩ => rfl
  have er : ∀ k : Fin 32, ridx_main_v100 i k = ix2 k (i 1) := fun k => funext fun a => by
    match a with
    | ⟨0, _⟩ => rfl
    | ⟨1, _⟩ => rfl
  have eb : idx_main_v101 (idx_main_v102 i) = ix1 (i 1) := funext fun a => by
    match a with
    | ⟨0, _⟩ => rfl
  simp only [el, er, eb]
  rfl

/-- The rectifier after the third layer. -/
theorem v104_eq : val_main_v104 (F := Ideal) x0 x1 x2 x3 x4 x5 x6 x7
    = reluOf (val_main_v103 (F := Ideal) x0 x1 x2 x3 x4 x5 x6 x7) := by
  funext i
  rw [val_main_v104_apply, val_main_call1_v0_apply, val_main_call1_cst_apply]
  rfl

/-- The fourth dense layer. -/
theorem v108_layer : val_main_v108 (F := Ideal) x0 x1 x2 x3 x4 x5 x6 x7 x8 x9
    = layer (R := 1048576) (K := 64) (J := 64) (val_main_v104 (F := Ideal) x0 x1 x2 x3 x4 x5 x6 x7) x8 x9 := by
  funext i
  rw [val_main_v108_apply, val_main_v105_apply, val_main_v107_apply, val_main_v106_apply]
  have el : ∀ k : Fin 64, lidx_main_v105 i k = ix2 (i 0) k := fun k => funext fun a => by
    match a with
    | ⟨0, _⟩ => rfl
    | ⟨1, _⟩ => rfl
  have er : ∀ k : Fin 64, ridx_main_v105 i k = ix2 k (i 1) := fun k => funext fun a => by
    match a with
    | ⟨0, _⟩ => rfl
    | ⟨1, _⟩ => rfl
  have eb : idx_main_v106 (idx_main_v107 i) = ix1 (i 1) := funext fun a => by
    match a with
    | ⟨0, _⟩ => rfl
  simp only [el, er, eb]
  rfl

/-- The rectifier after the fourth layer. -/
theorem v109_eq : val_main_v109 (F := Ideal) x0 x1 x2 x3 x4 x5 x6 x7 x8 x9
    = reluOf (val_main_v108 (F := Ideal) x0 x1 x2 x3 x4 x5 x6 x7 x8 x9) := by
  funext i
  rw [val_main_v109_apply, val_main_call2_v0_apply, val_main_call2_cst_apply]
  rfl

/-- The fifth dense layer, to the three colour channels. -/
theorem v113_layer : val_main_v113 (F := Ideal) x0 x1 x2 x3 x4 x5 x6 x7 x8 x9 x10 x11
    = layer (R := 1048576) (K := 64) (J := 3) (val_main_v109 (F := Ideal) x0 x1 x2 x3 x4 x5 x6 x7 x8 x9) x10 x11 := by
  funext i
  rw [val_main_v113_apply, val_main_v110_apply, val_main_v112_apply, val_main_v111_apply]
  have el : ∀ k : Fin 64, lidx_main_v110 i k = ix2 (i 0) k := fun k => funext fun a => by
    match a with
    | ⟨0, _⟩ => rfl
    | ⟨1, _⟩ => rfl
  have er : ∀ k : Fin 64, ridx_main_v110 i k = ix2 k (i 1) := fun k => funext fun a => by
    match a with
    | ⟨0, _⟩ => rfl
    | ⟨1, _⟩ => rfl
  have eb : idx_main_v111 (idx_main_v112 i) = ix1 (i 1) := funext fun a => by
    match a with
    | ⟨0, _⟩ => rfl
  simp only [el, er, eb]
  rfl

/-- The last four operations spell the logistic function of the fifth layer's entry: the word 0x3F800000 is the
    number 1, and  1 / (1 + e^(−c))  is the logistic function by its definition. -/
theorem v119_logistic (i : S1048576x3.Idx) : val_main_v119 (F := Ideal) x0 x1 x2 x3 x4 x5 x6 x7 x8 x9 x10 x11 i
    = Ideal.logistic (val_main_v113 (F := Ideal) x0 x1 x2 x3 x4 x5 x6 x7 x8 x9 x10 x11 i) := by
  rw [val_main_v119_apply, val_main_v118_apply, val_main_cst_25_apply, val_main_v117_apply, val_main_v116_apply,
    val_main_cst_24_apply, val_main_v115_apply, val_main_v114_apply]
  show Ideal.div (Ideal.ofBits .f32 0x3F800000#32)
      (Ideal.ofBits .f32 0x3F800000#32 + Ideal.exp (-(val_main_v113 (F := Ideal) x0 x1 x2 x3 x4 x5 x6 x7 x8 x9 x10 x11 i)))
    = Ideal.logistic (val_main_v113 (F := Ideal) x0 x1 x2 x3 x4 x5 x6 x7 x8 x9 x10 x11 i)
  rw [Ideal.ofBits_one_f32]
  rfl

end Colour

/-! ## The harmonics as one array, and the joined features -/

/-- The sixteen columns side by side are the harmonics of every row's direction: column q of row r is the q-th
    polynomial at the three coordinates of row r. -/
theorem v98_eq (x1 : (⟨S1048576x3, .f32⟩ : BufTy).Contents (Elt Ideal)) :
    val_main_v98 (F := Ideal) x1 = encOf (R := 1048576) x1 := by
  funext i
  obtain ⟨r, q, rfl⟩ : ∃ (r : Fin 1048576) (q : Fin 16), i = ix2 r q := ⟨i 0, i 1, eq_ix2 i⟩
  unfold val_main_v98
  refine (Cert.Concat.concatenate_cols16_apply _ _ _ _ _ _ _ _ _ _ _ _ _ _ _ _ _ r q).trans ?_
  match q with
  | ⟨0, _⟩ =>
    show val_main_v82 (F := Ideal) (ix2 r (0 : Fin 1)) = _
    rw [val_main_v82_apply, h0]; rfl
  | ⟨1, _⟩ =>
    show val_main_v83 (F := Ideal) x1 (ix2 r (0 : Fin 1)) = _
    rw [val_main_v83_apply, h1]; rfl
  | ⟨2, _⟩ =>
    show val_main_v84 (F := Ideal) x1 (ix2 r (0 : Fin 1)) = _
    rw [val_main_v84_apply, h2]; rfl
  | ⟨3, _⟩ =>
    show val_main_v85 (F := Ideal) x1 (ix2 r (0 : Fin 1)) = _
    rw [val_main_v85_apply, h3]; rfl
  | ⟨4, _⟩ =>
    show val_main_v86 (F := Ideal) x1 (ix2 r (0 : Fin 1)) = _
    rw [val_main_v86_apply, h4]; rfl
  | ⟨5, _⟩ =>
    show val_main_v87 (F := Ideal) x1 (ix2 r (0 : Fin 1)) = _
    rw [val_main_v87_apply, h5]; rfl
  | ⟨6, _⟩ =>
    show val_main_v88 (F := Ideal) x1 (ix2 r (0 : Fin 1)) = _
    rw [val_main_v88_apply, h6]; rfl
  | ⟨7, _⟩ =>
    show val_main_v89 (F := Ideal) x1 (ix2 r (0 : Fin 1)) = _
    rw [val_main_v89_apply, h7]; rfl
  | ⟨8, _⟩ =>
    show val_main_v90 (F := Ideal) x1 (ix2 r (0 : Fin 1)) = _
    rw [val_main_v90_apply, h8]; rfl
  | ⟨9, _⟩ =>
    show val_main_v91 (F := Ideal) x1 (ix2 r (0 : Fin 1)) = _
    rw [val_main_v91_apply, h9]; rfl
  | ⟨10, _⟩ =>
    show val_main_v92 (F := Ideal) x1 (ix2 r (0 : Fin 1)) = _
    rw [val_main_v92_apply, h10]; rfl
  | ⟨11, _⟩ =>
    show val_main_v93 (F := Ideal) x1 (ix2 r (0 : Fin 1)) = _
    rw [val_main_v93_apply, h11]; rfl
  | ⟨12, _⟩ =>
    show val_main_v94 (F := Ideal) x1 (ix2 r (0 : Fin 1)) = _
    rw [val_main_v94_apply, h12]; rfl
  | ⟨13, _⟩ =>
    show val_main_v95 (F := Ideal) x1 (ix2 r (0 : Fin 1)) = _
    rw [val_main_v95_apply, h13]; rfl
  | ⟨14, _⟩ =>
    show val_main_v96 (F := Ideal) x1 (ix2 r (0 : Fin 1)) = _
    rw [val_main_v96_apply, h14]; rfl
  | ⟨15, _⟩ =>
    show val_main_v97 (F := Ideal) x1 (ix2 r (0 : Fin 1)) = _
    rw [val_main_v97_apply, h15]; rfl
  | ⟨n + 16, hn⟩ => exact absurd hn (by omega)

/-- The density features and the harmonics side by side are the 32 joined features. -/
theorem v99_eq (x0 : (⟨S1048576x32, .f32⟩ : BufTy).Contents (Elt Ideal)) (x1 : (⟨S1048576x3, .f32⟩ : BufTy).Contents (Elt Ideal))
    (x2 : (⟨S32x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) :
    val_main_v99 (F := Ideal) x0 x1 x2 x3 x4 x5
      = catOf (R := 1048576) (densityOf x0 x2 x3 x4 x5) (encOf x1) := by
  funext i
  unfold val_main_v99
  rw [density_eq, v98_eq]
  exact Cert.Concat.concatenate_pair16_apply _ _ _ i

/-! ## The colour -/

/-- The colour of the reference program is the specification's: the stages are joined bottom-up and the last four
    operations are the logistic function. -/
theorem color_eq (x0 : (⟨S1048576x32, .f32⟩ : BufTy).Contents (Elt Ideal)) (x1 : (⟨S1048576x3, .f32⟩ : BufTy).Contents (Elt Ideal))
    (x2 : (⟨S32x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal))
    (x6 : (⟨S32x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x3, .f32⟩ : BufTy).Contents (Elt Ideal)) (x11 : (⟨S3, .f32⟩ : BufTy).Contents (Elt Ideal)) :
    Cert.ReferenceIdeal.Read.val_main_v119 (F := Ideal) x0 x1 x2 x3 x4 x5 x6 x7 x8 x9 x10 x11
      = Cert.Mlp.colorOf x0 x1 x2 x3 x4 x5 x6 x7 x8 x9 x10 x11 := by
  funext i
  rw [v119_logistic, v113_layer, v109_eq, v108_layer, v104_eq, v103_layer, v99_eq]
  rfl

end Cert.ReferenceIdeal.RefValue

end
-- ==== Proof.lean ====
/-
  A fused neural-radiance-field MLP kernel against its plain reference.

  Both programs map each of 1 048 576 rows (32 position features, a 3-vector direction) to 16 density features and a
  3-component colour: two dense layers with a rectifier give the density; the direction's 16 real spherical harmonics
  of degree at most 3, joined to the density, go through three more dense layers and the logistic function.  The kernel
  does this 4096 rows at a time on a grid of 256 points, narrowing each matrix product's operands to a shorter float
  format; the reference does it on the whole arrays and spells the logistic function as 1 / (1 + e^(−c)).

  On the extended reals the narrowing is the identity, a product accumulated into zero and the reference's contraction
  are the same sum Σₖ x(r,k)·w(k,j), and the logistic function is by definition 1 / (1 + e^(−c)); the harmonics use the
  same binary32 coefficients in the same grouping on both sides.  So both sides are one function of the arguments,
  entry by entry (Proof/Spec.lean), with no law that needs finite inputs: the precondition is never opened.  Rows do not
  interact, so the kernel's row blocks are the rows of that function on the whole arrays, and the blocks cover every row.

  Proof/KernelBody.lean reads the kernel's body at one grid point, Proof/KernelArray.lean goes from blocks to the whole
  output arrays, Proof/RefValue.lean reads the reference; here the five claims are put together.
-/
import proofs.«120825_j76673756168435_1_alg».proof.Defs
import proofs.«120825_j76673756168435_1_alg».proof.Proof.Gen.Kernel
import proofs.«120825_j76673756168435_1_alg».proof.Proof.Gen.Kernel.Frame
import proofs.«120825_j76673756168435_1_alg».proof.Proof.Gen.KernelIdeal
import proofs.«120825_j76673756168435_1_alg».proof.Proof.Gen.KernelIdeal.Frame
import proofs.«120825_j76673756168435_1_alg».proof.Proof.Gen.KernelIdeal.Value
import proofs.«120825_j76673756168435_1_alg».proof.Proof.Gen.ReferenceIdeal
import proofs.«120825_j76673756168435_1_alg».proof.Proof.Gen.ReferenceIdeal.Run
import proofs.«120825_j76673756168435_1_alg».proof.Proof.Gen.ReferenceIdeal.Read
import proofs.«120825_j76673756168435_1_alg».proof.Proof.Gen.Pre_finite_inputs
import proofs.«120825_j76673756168435_1_alg».proof.Proof.Spec
import proofs.«120825_j76673756168435_1_alg».proof.Proof.KernelBody
import proofs.«120825_j76673756168435_1_alg».proof.Proof.KernelArray
import proofs.«120825_j76673756168435_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel :=
  fun m ρ _ => Cert.Kernel.Gen.frame m ρ

/-- So does the kernel read on the extended reals. -/
theorem frame_kernelIdeal : Cert.frame_KernelIdeal :=
  fun m ρ _ => Cert.KernelIdeal.Gen.frame m ρ

/-- The reference is host operations only: its run ends with the arguments unchanged. -/
theorem frame_reference : Cert.frame_ReferenceIdeal :=
  fun m ρ _ => (θ_run Cert.ReferenceIdeal.defs _ _).mono (fun _ h c => (h c).2.2)
    (Cert.ReferenceIdeal.Value.run (F := Ideal) m ρ)

/-- Both programs end with the density array at the specification's density and the colour array at its colour of
    the (agreeing) arguments. -/
theorem algebraic : Cert.algebraic_KernelIdeal_ReferenceIdeal := by
  intro m ρ m' ρ' _ hagree
  refine ⟨_, _, Cert.KernelIdeal.ArrValue.run m ρ Cert.KernelIdeal.Body.out12_eq Cert.KernelIdeal.Body.out13_eq, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11⟩ := hagree c
    rw [(h c).1, Cert.ReferenceIdeal.Read.val_main_v8_eq, Cert.ReferenceIdeal.RefValue.density_eq, a0, a2, a3, a4, a5]
  · obtain ⟨a0, a1, a2, a3, a4, a5, a6, a7, a8, a9, a10, a11⟩ := hagree c
    rw [(h c).2.1, Cert.ReferenceIdeal.Read.val_main_v119_eq, Cert.ReferenceIdeal.RefValue.color_eq,
      a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
